-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S16x512x512 : Shape := ⟨3, ![16, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x3x512x512 .f32) (main_arg1 : FVec F S16x3x512x512 .f32) (main_arg2 : IVec S16x512x512 32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_c_2 : IVec S_ 32 := constantI S_ 32 0#32
  let main_v9 : IVec S16x512x512 32 := broadcastInDim S16x512x512 ![] bcast_S_S16x512x512 main_c_2
  let main_v10 : IVec S16x512x512 1 := cmpi .sge main_arg2 main_v9
  let main_c_3 : IVec S_ 1 := constantI S_ 1 1#1
  let main_v11 : IVec S_ 1 := (fun x v => Host.reduce IntOp.andi x v reducesTo_S16x512x512_S_d0_1_2 h_S_) main_v10 main_c_3
  let main_v12 : IVec S_ 1 := andi main_v8 main_v11
  let main_c_4 : IVec S_ 32 := constantI S_ 32 64#32
  let main_v13 : IVec S16x512x512 32 := broadcastInDim S16x512x512 ![] bcast_S_S16x512x512 main_c_4
  let main_v14 : IVec S16x512x512 1 := cmpi .slt main_arg2 main_v13
  let main_c_5 : IVec S_ 1 := constantI S_ 1 1#1
  let main_v15 : IVec S_ 1 := (fun x v => Host.reduce IntOp.andi x v reducesTo_S16x512x512_S_d0_1_2 h_S_) main_v14 main_c_5
  fn_part1 (F := F) main_v12 main_v15
-- ==== Kernel.lean ====
abbrev S16x3x512x512 : Shape := ⟨4, ![16, 3, 512, 512]⟩
abbrev S16x512x512 : Shape := ⟨3, ![16, 512, 512]⟩
abbrev S16x1x128 : Shape := ⟨3, ![16, 1, 128]⟩
abbrev S1x3x128x512 : Shape := ⟨4, ![1, 3, 128, 512]⟩
abbrev S1x128x512 : Shape := ⟨3, ![1, 128, 512]⟩
abbrev S1x1x128 : Shape := ⟨3, ![1, 1, 128]⟩
abbrev S3x128x512 : Shape := ⟨3, ![3, 128, 512]⟩
abbrev S128x512 : Shape := ⟨2, ![128, 512]⟩
abbrev S128x512x128 : Shape := ⟨3, ![128, 512, 128]⟩
abbrev S128x512x1 : Shape := ⟨3, ![128, 512, 1]⟩
abbrev S128x1x512 : Shape := ⟨3, ![128, 1, 512]⟩
abbrev S128x1x128 : Shape := ⟨3, ![128, 1, 128]⟩
abbrev S1x128 : Shape := ⟨2, ![1, 128]⟩
abbrev S_ : Shape := ⟨0, ![]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 31
  | .vmem => 20
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x512x512, .i32⟩
  | .hbm, ⟨3, _⟩ => ⟨S16x1x128, .f32⟩
  | .hbm, ⟨4, _⟩ => ⟨S16x1x128, .f32⟩
  | .hbm, ⟨5, _⟩ => ⟨S_, .f32⟩
  | .hbm, ⟨6, _⟩ => ⟨S16x1x128, .f32⟩
  | .hbm, ⟨7, _⟩ => ⟨S16x1x128, .f32⟩
  | .hbm, ⟨8, _⟩ => ⟨S_, .f32⟩
  | .hbm, ⟨9, _⟩ => ⟨S16x1x128, .f32⟩
  | .hbm, ⟨10, _⟩ => ⟨S16x1x128, .f32⟩
  | .hbm, ⟨11, _⟩ => ⟨S16x1x128, .f32⟩
  | .hbm, ⟨12, _⟩ => ⟨S_, .f32⟩
  | .hbm, ⟨13, _⟩ => ⟨S_, .f32⟩
  | .hbm, ⟨14, _⟩ => ⟨S16x1x128, .f32⟩
  | .hbm, ⟨15, _⟩ => ⟨S16x1x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x1x128, .f32⟩
  | .hbm, ⟨20, _⟩ => ⟨S16x1x128, .f32⟩
  | .hbm, ⟨21, _⟩ => ⟨S_, .f32⟩
  | .hbm, ⟨22, _⟩ => ⟨S16x1x128, .f32⟩
  | .hbm, ⟨23, _⟩ => ⟨S16x1x128, .f32⟩
  | .hbm, ⟨24, _⟩ => ⟨S16x1x128, .f32⟩
  | .hbm, ⟨25, _⟩ => ⟨S16x1x1, .f32⟩
  | .hbm, ⟨26, _⟩ => ⟨S16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x3x128x512, .f32⟩
  | .local _ .vmem, ⟨1, _⟩ => ⟨S1x3x128x512, .f32⟩
  | .local _ .vmem, ⟨2, _⟩ => ⟨S1x3x128x512, .f32⟩
  | .local _ .vmem, ⟨3, _⟩ => ⟨S1x3x128x512, .f32⟩
  | .local _ .vmem, ⟨4, _⟩ => ⟨S1x128x512, .i32⟩
  | .local _ .vmem, ⟨5, _⟩ => ⟨S1x128x512, .i32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x3x128x512, .f32⟩
  | .local _ .vmem, ⟨11, _⟩ => ⟨S1x3x128x512, .f32⟩
  | .local _ .vmem, ⟨12, _⟩ => ⟨S1x3x128x512, .f32⟩
  | .local _ .vmem, ⟨13, _⟩ => ⟨S1x3x128x512, .f32⟩
  | .local _ .vmem, ⟨14, _⟩ => ⟨S1x128x512, .i32⟩
  | .local _ .vmem, ⟨15, _⟩ => ⟨S1x128x512, .i32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  inb_S1x3x128x512_S1x3x128x512_0_0_0_0 : ∀ a, (![0, 0, 0, 0] : Fin 4 → Nat) a + S1x3x128x512.size a ≤ S1x3x128x512.size a
  h_S1x3x128x512 : 0 < S1x3x128x512.numel
  shapeCasts_S1x3x128x512_S3x128x512 : S1x3x128x512.ShapeCasts S3x128x512
  reduces_S3x128x512_S128x512 : S3x128x512.Reduces [0] S128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  iota_S128x512x128_d2_w32 : S128x512x128.Iotas .tc 32 [2]
  shapeCasts_S128x512_S128x512x1 : S128x512.ShapeCasts S128x512x1
  broadcasts_S128x512x1_S128x512x128 : S128x512x1.Broadcasts S128x512x128
  natLt_1_32 : 1 < 32
  bitsLt_bf16_f32 : FTy.bits .bf16 < FTy.bits .f32
  shapeCasts_S128x512_S128x1x512 : S128x512.ShapeCasts S128x1x512
  reduces_S128x1x128_S1x128 : S128x1x128.Reduces [0] S1x128
  shapeCasts_S1x1x128_S1x1x128 : S1x1x128.ShapeCasts S1x1x128
  shapeCasts_S1x128_S1x1x128 : S1x128.ShapeCasts S1x1x128
  bcast_S_S16x1x128 : S_.BroadcastsInDim S16x1x128 (![] : Fin 0 → Fin S16x1x128.rank)
  reducesTo_S16x1x128_S_d0_1_2 : S16x1x128.ReducesTo [0, 1, 2] S_
  h_S_ : 0 < S_.numel
  shapeCasts_S1x1x128_S128 : S1x1x128.ShapeCasts S128
  shapeCasts_S128_S1x1x128 : S128.ShapeCasts S1x1x128
  broadcasts_S1x1x128_S128x512x128 : S1x1x128.Broadcasts S128x512x128
  reduces_S128x512x128_S128x512 : S128x512x128.Reduces [2] S128x512
  shapeCasts_S128x512_S1x128x512 : S128x512.ShapeCasts S1x128x512
  broadcasts_S1x128x512_S3x128x512 : S1x128x512.Broadcasts S3x128x512
  reduces_S128x512_S128 : S128x512.Reduces [1] S128
  shapeCasts_S128_S128x1 : S128.ShapeCasts S128x1
  reduces_S128x1_S1 : S128x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  slices_S16x1x128_S16x1x1_0_0_0 : S16x1x128.Slices ![0, 0, 0] S16x1x1
  shapeCasts_S16x1x1_S16 : S16x1x1.ShapeCasts S16
  reducesTo_S16_S_d0 : S16.ReducesTo [0] S_
  dot_S128x1x512_S128x512x128_S128x1x128_2_1_1_2_0_0_wf : DotDims.WF S128x1x512 S128x512x128 S128x1x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128x512.size a ≤ S16x3x512x512.size a
  hwx0_0 : ∀ i : grid0.Coords, EltTy.bits .f32 = 32 ∨ (Rect.block (s := S16x3x512x512) S1x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x128x512.size a ≤ S16x3x512x512.size a
  hwx0_1 : ∀ i : grid0.Coords, EltTy.bits .f32 = 32 ∨ (Rect.block (s := S16x3x512x512) S1x3x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S16x512x512.size a
  hwx0_2 : ∀ i : grid0.Coords, EltTy.bits .i32 = 32 ∨ (Rect.block (s := S16x512x512) S1x128x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x128x512.size a ≤ S16x3x512x512.size a
  hwx1_0 : ∀ i : grid1.Coords, EltTy.bits .f32 = 32 ∨ (Rect.block (s := S16x3x512x512) S1x3x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x128x512.size a ≤ S16x3x512x512.size a
  hwx1_1 : ∀ i : grid1.Coords, EltTy.bits .f32 = 32 ∨ (Rect.block (s := S16x3x512x512) S1x3x128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x512.size a ≤ S16x512x512.size a
  hwx1_2 : ∀ i : grid1.Coords, EltTy.bits .i32 = 32 ∨ (Rect.block (s := S16x512x512) S1x128x512.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S16x1x128.size a
  hwx1_3 : ∀ i : grid1.Coords, EltTy.bits .f32 = 32 ∨ (Rect.block (s := S16x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S16x1x128.size a
  hwx1_4 : ∀ i : grid1.Coords, EltTy.bits .f32 = 32 ∨ (Rect.block (s := S16x1x128) S1x1x128.size (cc1_transform_4 i) (hinb1_4 i)).WholeWords (EltTy.packing .f32)

variable [Facts₀]

def dot_S128x1x512_S128x512x128_S128x1x128_2_1_1_2_0_0 : DotDims S128x1x512 S128x512x128 S128x1x128 where
  lhsContracting := [2]
  rhsContracting := [1]
  lhsNonContracting := [1]
  rhsNonContracting := [2]
  lhsBatch := [0]
  rhsBatch := [0]
  wf := dot_S128x1x512_S128x512x128_S128x1x128_2_1_1_2_0_0_wf

abbrev win0_0 : Pipeline.Window sig grid0 :=
  Pipeline.Window.ofSpec (Memref.whole main_arg0) S1x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x3x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x3x128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x128x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x3x512x512 : Shape := ⟨4, ![16, 3, 512, 512]⟩
abbrev S16x512x512 : Shape := ⟨3, ![16, 512, 512]⟩
abbrev S16 : Shape := ⟨1, ![16]⟩
abbrev S16x1x1 : Shape := ⟨3, ![16, 1, 1]⟩
abbrev S_ : Shape := ⟨0, ![]⟩
abbrev S4194304 : Shape := ⟨1, ![4194304]⟩
abbrev S1024 : Shape := ⟨1, ![1024]⟩
abbrev S4194304x1 : Shape := ⟨2, ![4194304, 1]⟩
abbrev S16x1x512x512 : Shape := ⟨4, ![16, 1, 512, 512]⟩

abbrev nBuf : Space → Nat
  | .hbm => 67
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x512x512, .i32⟩
  | .hbm, ⟨3, _⟩ => ⟨S16x3x512x512, .f32⟩
  | .hbm, ⟨4, _⟩ => ⟨S16x3x512x512, .f32⟩
  | .hbm, ⟨5, _⟩ => ⟨S16, .i32⟩
  | .hbm, ⟨6, _⟩ => ⟨S16x1x1, .i32⟩
  | .hbm, ⟨7, _⟩ => ⟨S_, .i32⟩
  | .hbm, ⟨8, _⟩ => ⟨S16x1x1, .i32⟩
  | .hbm, ⟨9, _⟩ => ⟨S16x1x1, .i32⟩
  | .hbm, ⟨10, _⟩ => ⟨S16x512x512, .i32⟩
  | .hbm, ⟨11, _⟩ => ⟨S16x512x512, .i32⟩
  | .hbm, ⟨12, _⟩ => ⟨S4194304, .i32⟩
  | .hbm, ⟨13, _⟩ => ⟨S_, .f32⟩
  | .hbm, ⟨14, _⟩ => ⟨S16x512x512, .f32⟩
  | .hbm, ⟨15, _⟩ => ⟨S4194304, .f32⟩
  | .hbm, ⟨16, _⟩ => ⟨S_, .f32⟩
  | .hbm, ⟨17, _⟩ => ⟨S1024, .f32⟩
  | .hbm, ⟨18, _⟩ => ⟨S4194304x1, .i32⟩
  | .hbm, ⟨19, _⟩ => ⟨S1024, .f32⟩
  | .hbm, ⟨20, _⟩ => ⟨S_, .f32⟩
  | .hbm, ⟨21, _⟩ => ⟨S4194304, .f32⟩
  | .hbm, ⟨22, _⟩ => ⟨S_, .f32⟩
  | .hbm, ⟨23, _⟩ => ⟨S1024, .f32⟩
  | .hbm, ⟨24, _⟩ => ⟨S4194304x1, .i32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S_, .i32⟩
  | .hbm, ⟨34, _⟩ => ⟨S4194304, .i32⟩
  | .hbm, ⟨35, _⟩ => ⟨S4194304, .i1⟩
  | .hbm, ⟨36, _⟩ => ⟨S_, .i32⟩
  | .hbm, ⟨37, _⟩ => ⟨S4194304, .i32⟩
  | .hbm, ⟨38, _⟩ => ⟨S4194304, .i32⟩
  | .hbm, ⟨39, _⟩ => ⟨S4194304, .i32⟩
  | .hbm, ⟨40, _⟩ => ⟨S4194304x1, .i32⟩
  | .hbm, ⟨41, _⟩ => ⟨S4194304, .f32⟩
  | .hbm, ⟨42, _⟩ => ⟨S16x1x512x512, .f32⟩
  | .hbm, ⟨43, _⟩ => ⟨S_, .f32⟩
  | .hbm, ⟨44, _⟩ => ⟨S_, .f32⟩
  | .hbm, ⟨45, _⟩ => ⟨S16x1x512x512, .f32⟩
  | .hbm, ⟨46, _⟩ => ⟨S16x1x512x512, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S16x1x512x512, .f32⟩
  | .hbm, ⟨51, _⟩ => ⟨S16x1x512x512, .f32⟩
  | .hbm, ⟨52, _⟩ => ⟨S_, .f32⟩
  | .hbm, ⟨53, _⟩ => ⟨S16x1x512x512, .f32⟩
  | .hbm, ⟨54, _⟩ => ⟨S16x1x512x512, .f32⟩
  | .hbm, ⟨55, _⟩ => ⟨S_, .f32⟩
  | .hbm, ⟨56, _⟩ => ⟨S16x1x512x512, .f32⟩
  | .hbm, ⟨57, _⟩ => ⟨S16x1x512x512, .f32⟩
  | .hbm, ⟨58, _⟩ => ⟨S_, .f32⟩
  | .hbm, ⟨59, _⟩ => ⟨S16x1x512x512, .f32⟩
  | .hbm, ⟨60, _⟩ => ⟨S16x1x512x512, .f32⟩
  | .hbm, ⟨61, _⟩ => ⟨S16x3x512x512, .f32⟩
  | .hbm, ⟨62, _⟩ => ⟨S16x3x512x512, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_cst_9 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_12 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩

abbrev nD : Nat := 1
abbrev τ : Topo := Topo.v7x

variable {F : FTy → Type} [FloatOps F]

class Facts₀ : Prop where
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x512x512_0_1_2 : S16x1x1.BroadcastsInDim S16x512x512 (![0, 1, 2] : Fin 3 → Fin S16x512x512.rank)
  shapeCasts_S16x512x512_S4194304 : S16x512x512.ShapeCasts S4194304
  reducesTo_S16x3x512x512_S16x512x512_d1 : S16x3x512x512.ReducesTo [1] S16x512x512
  h_S_ : 0 < S_.numel
  bcast_S_S1024 : S_.BroadcastsInDim S1024 (![] : Fin 0 → Fin S1024.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  shapeCasts_S4194304_S16x1x512x512 : S4194304.ShapeCasts S16x1x512x512
  reducesTo_S16x1x512x512_S_d0_1_2_3 : S16x1x512x512.ReducesTo [0, 1, 2, 3] S_
  bcast_S_S16x1x512x512 : S_.BroadcastsInDim S16x1x512x512 (![] : Fin 0 → Fin S16x1x512x512.rank)
  bcast_S16x1x512x512_S16x3x512x512_0_1_2_3 : S16x1x512x512.BroadcastsInDim S16x3x512x512 (![0, 1, 2, 3] : Fin 4 → Fin S16x3x512x512.rank)
  reducesTo_S16x3x512x512_S_d0_1_2_3 : S16x3x512x512.ReducesTo [0, 1, 2, 3] S_
  scatter_S1024_S4194304x1_S4194304_n_0_0_1_wf : ScatterDims.WF S1024 S4194304x1 S4194304 [] [0] [0] 1
  gather_S1024_S4194304x1_S4194304_n_0_n_n_0_1_1_wf : GatherDims.WF S1024 S4194304x1 S4194304 [] [0] [] [0] [] 1 ![1]

variable [Facts₀]

def scatter_S1024_S4194304x1_S4194304_n_0_0_1 : ScatterDims S1024 S4194304x1 S4194304 where
  updateWindowDims := []
  insertedWindowDims := [0]
  scatterDimsToOperandDims := [0]
  indexVectorDim := 1
  wf := scatter_S1024_S4194304x1_S4194304_n_0_0_1_wf
def gather_S1024_S4194304x1_S4194304_n_0_n_n_0_1_1 : GatherDims S1024 S4194304x1 S4194304 where
  offsetDims := []
  collapsedSliceDims := [0]
  operandBatchingDims := []
  startIndicesBatchingDims := []
  startIndexMap := [0]
  indexVectorDim := 1
  sliceSizes := ![1]
  wf := gather_S1024_S4194304x1_S4194304_n_0_n_n_0_1_1_wf

class Facts : Prop extends Facts₀ where

variable [Facts]
-- ==== Proof.KPieces.lean ====
/-
  What each case of the two kernel bodies leaves in its output blocks, as a value of the blocks it loaded.

  First kernel (per image, one row tile per step): the sums block ends at the carried block plus this tile's
  label-wise weight sums, the counts block at the carried block plus this tile's label-wise pixel counts; at a
  row tile 0 the carried block is the zero block the body has just stored. Second kernel: the output block ends
  at the carried block plus this tile's scaled total spread over the lanes, again from the zero block at row tile 0.
  Each is the payload of the body's last store into that block, its loads read back as the whole staged blocks.
-/
import proofs.«400574_j67869073211922_4_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First kernel, row tile 0: the sums block is the tile's sums over the zero block just stored. -/
theorem sums_first (c : Dev nD) (i : grid0.Coords) (a2 : Memref sig .tc .vmem S1x3x128x512 .f32) (h2 : a2.IsWhole) (a3 : Memref sig .tc .vmem S1x3x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (hc : cond0_0 i)
    (x0 x1 : Vec F S1x3x128x512 .f32) (x2 : Vec F S1x128x512 .i32) :
    out0_A_3 c i a2 h2 a3 h3 a4 h4 a5 h5 a6 h6 hc x0 x1 x2 = k0_pay6 x0 x1 x2 (k0_pay2 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x1x128) hz3]
  simp only [View.readAt_eq_ld, h2.read_unread, h3.read_unread, h4.read_unread, h5.read_unread, h6.read_unread,
    View.ld_unit_zero (S := S1x3x128x512) hz4, View.ld_unit_zero (S := S1x128x512) hz3,
    View.ld_unit_zero (S := S1x1x128) hz3, View.readCov_unit_zero (S := S1x1x128) _ hz3]

/-- First kernel, row tile 0: the counts block is the tile's counts over the zero block just stored. -/
theorem cnts_first (c : Dev nD) (i : grid0.Coords) (a2 : Memref sig .tc .vmem S1x3x128x512 .f32) (h2 : a2.IsWhole) (a3 : Memref sig .tc .vmem S1x3x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (hc : cond0_0 i)
    (x0 x1 : Vec F S1x3x128x512 .f32) (x2 : Vec F S1x128x512 .i32) :
    out0_A_4 c i a2 h2 a3 h3 a4 h4 a5 h5 a6 h6 hc x0 x1 x2 = k0_pay1 (k0_pay5 x2) (k0_pay3 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x128) hz3]
  simp only [View.readAt_eq_ld, h2.read_unread, h3.read_unread, h4.read_unread, h5.read_unread, h6.read_unread,
    View.ld_unit_zero (S := S1x3x128x512) hz4, View.ld_unit_zero (S := S1x128x512) hz3,
    View.ld_unit_zero (S := S1x1x128) hz3, View.readCov_unit_zero (S := S1x1x128) _ hz3]

/-- First kernel, a later row tile: the sums block is the tile's sums over the block carried from the step before. -/
theorem sums_next (c : Dev nD) (i : grid0.Coords) (a2 : Memref sig .tc .vmem S1x3x128x512 .f32) (h2 : a2.IsWhole) (a3 : Memref sig .tc .vmem S1x3x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (hc : ¬cond0_0 i)
    (x0 x1 : Vec F S1x3x128x512 .f32) (x2 : Vec F S1x128x512 .i32) (xo3 xo4 : Vec F S1x1x128 .f32) :
    out0_B_3 c i a2 h2 a3 h3 a4 h4 a5 h5 a6 h6 hc x0 x1 x2 xo3 xo4 = k0_pay6 x0 x1 x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x3x128x512) hz4, View.ld_unit_zero (S := S1x128x512) hz3,
    View.ld_unit_zero (S := S1x1x128) hz3]

/-- First kernel, a later row tile: the counts block likewise. -/
theorem cnts_next (c : Dev nD) (i : grid0.Coords) (a2 : Memref sig .tc .vmem S1x3x128x512 .f32) (h2 : a2.IsWhole) (a3 : Memref sig .tc .vmem S1x3x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (hc : ¬cond0_0 i)
    (x0 x1 : Vec F S1x3x128x512 .f32) (x2 : Vec F S1x128x512 .i32) (xo3 xo4 : Vec F S1x1x128 .f32) :
    out0_B_4 c i a2 h2 a3 h3 a4 h4 a5 h5 a6 h6 hc x0 x1 x2 xo3 xo4 = k0_pay1 (k0_pay5 x2) xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x3x128x512) hz4, View.ld_unit_zero (S := S1x128x512) hz3,
    View.ld_unit_zero (S := S1x1x128) hz3]

/-- Second kernel, row tile 0: the output block is the tile's scaled total over the zero block just stored. -/
theorem total_first (c : Dev nD) (i : grid1.Coords) (a2 : Memref sig .tc .vmem S1x3x128x512 .f32) (h2 : a2.IsWhole) (a3 : Memref sig .tc .vmem S1x3x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (hc : cond1_0 i)
    (x0 x1 : Vec F S1x3x128x512 .f32) (x2 : Vec F S1x128x512 .i32) (x3 : Vec F S1x1x128 .f32) :
    out1_A_4 c i a2 h2 a3 h3 a4 h4 a5 h5 a6 h6 hc x0 x1 x2 x3 = k1_pay1 (k1_pay3 x0 x1 x2 x3) (k1_pay2 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x1x128) hz3]
  simp only [View.readAt_eq_ld, h2.read_unread, h3.read_unread, h4.read_unread, h5.read_unread, h6.read_unread,
    View.ld_unit_zero (S := S1x3x128x512) hz4, View.ld_unit_zero (S := S1x128x512) hz3,
    View.ld_unit_zero (S := S1x1x128) hz3, View.readCov_unit_zero (S := S1x1x128) _ hz3]

/-- Second kernel, a later row tile: the output block is the tile's scaled total over the carried block. -/
theorem total_next (c : Dev nD) (i : grid1.Coords) (a2 : Memref sig .tc .vmem S1x3x128x512 .f32) (h2 : a2.IsWhole) (a3 : Memref sig .tc .vmem S1x3x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (hc : ¬cond1_0 i)
    (x0 x1 : Vec F S1x3x128x512 .f32) (x2 : Vec F S1x128x512 .i32) (x3 xo4 : Vec F S1x1x128 .f32) :
    out1_B_4 c i a2 h2 a3 h3 a4 h4 a5 h5 a6 h6 hc x0 x1 x2 x3 xo4 = k1_pay1 (k1_pay3 x0 x1 x2 x3) xo4 := by
  unfold out1_B_4
  rw [View.read_writes_eq_canon _ _ _ (cover1_B_4 c i a2 h2 a3 h3 a4 h4 a5 h5 a6 h6 hc x0 x1 x2 x3 xo4)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S1x3x128x512) hz4, View.ld_unit_zero (S := S1x128x512) hz3,
    View.ld_unit_zero (S := S1x1x128) hz3]

end Cert.KernelIdeal.Pieces

end
-- ==== Proof.KPay0.lean ====
/-
  The first kernel's two accumulating payloads read at a lane, over the extended reals.

  At lane l the sums payload is the carried block's entry plus, over the tile's 128 rows and 512 columns, the
  pixel's channel-summed absolute difference times the 1-or-0 of "the pixel's label is l": the matrix product
  with the one-hot block contracts the columns, the reduction after it adds up the rows. The counts payload is the
  same with every pixel weighing 1. A change of float format is the identity here, and the integer 1 or 0 of a
  comparison converts to the number 1 or 0.
-/
import proofs.«400574_j67869073211922_4_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.IdealRules

set_option maxRecDepth 16384

noncomputable section

open scoped BigOperators
open Idealize.ShloMosaic Idealize.ShloMosaic.ValueIdx

namespace Cert.KernelIdeal.Pay0

open Cert.KernelIdeal Cert.KernelIdeal.Gen

/-- The zero blocks the body stores at a row tile 0. -/
theorem zero_sums (j : S1x1x128.Idx) : k0_pay2 (F := Ideal) j = 0 := by
  unfold k0_pay2
  exact Ideal.ofBits_zero_f32
theorem zero_cnts (j : S1x1x128.Idx) : k0_pay3 (F := Ideal) j = 0 := by
  unfold k0_pay3
  exact Ideal.ofBits_zero_f32

/-! ## The 1-or-0 factor -/

/-- A one-bit word widened to 32 bits and converted as a signed integer is the number 1 or 0. -/
private theorem sitofp_bit (b : BitVec 1) :
    (FloatOps.sitofp (F := Ideal) .f32 (b.setWidth 32) : EReal) = if b = 1#1 then (1 : EReal) else 0 := by
  rcases BitVec.eq_zero_or_eq_one b with rfl | rfl
  · have h : ((0#1 : BitVec 1).setWidth 32).toInt = 0 := by decide
    show (((((0#1 : BitVec 1).setWidth 32).toInt : ℝ)) : EReal) = _
    rw [h, if_neg (by decide)]
    simp
  · have h : ((1#1 : BitVec 1).setWidth 32).toInt = 1 := by decide
    show (((((1#1 : BitVec 1).setWidth 32).toInt : ℝ)) : EReal) = _
    rw [h, if_pos rfl]
    simp

/-- A 32-bit word equals the word of a lane number below 128 exactly when its value is that number. -/
private theorem eq_ofNat_iff (a : BitVec 32) (l : Fin 128) : a = BitVec.ofNat 32 l.val ↔ a.toNat = l.val := by
  constructor
  · intro h; rw [h, BitVec.toNat_ofNat]; have := l.isLt; omega
  · intro h; apply BitVec.eq_of_toNat_eq; rw [h, BitVec.toNat_ofNat]; have := l.isLt; omega

/-- A [a, b, 1] array broadcast along its last axis reads, at (r, w, l), the operand at (r, w, 0). -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (r : Fin a) (w : Fin b) (l : Fin c) :
    broadcastTo ⟨3, ![a, b, c]⟩ v h (ix3 r w l) = v (ix3 r w (0 : Fin 1)) :=
  broadcastTo_apply v h _ _ fun d => match d with
    | ⟨0, _⟩ => by
        show r.val = if a = 1 then 0 else r.val
        split
        · omega
        · rfl
    | ⟨1, _⟩ => by
        show w.val = if b = 1 then 0 else w.val
        split
        · omega
        · rfl
    | ⟨2, _⟩ => rfl

/-- An [a, b] array cast to [a, b, 1] reads, at (r, w, u), the operand at (r, w). -/
private theorem shapeCast_ab_ab1_apply {α : Type} {a b : ℕ} (v : (⟨2, ![a, b]⟩ : Shape).Idx → α)
    (h : (⟨2, ![a, b]⟩ : Shape).ShapeCasts ⟨3, ![a, b, 1]⟩) (r : Fin a) (w : Fin b) (u : Fin 1) :
    shapeCast ⟨3, ![a, b, 1]⟩ v h (ix3 r w u) = v (ix2 r w) :=
  shapeCast_apply v h _ _ (by
    have hu : u.val = 0 := by omega
    rw [Shape.rowMajor_val_three, Shape.rowMajor_val_two]
    show r.val * b + w.val = (r.val * b + w.val) * 1 + u.val
    rw [hu, Nat.mul_one, Nat.add_zero])

/-- The one-hot block at (row r, column w, lane l): 1 when the pixel's label is l, else 0. -/
private theorem onehot_apply (x2 : Vec Ideal S1x128x512 .i32) (r : Fin 128) (w : Fin 512) (l : Fin 128) :
    k0_pay4 (F := Ideal) x2 (ix3 r w l) = if (x2 (ix3 0 r w)).toNat = l.val then (1 : EReal) else 0 := by
  unfold k0_pay4
  dsimp only
  rw [truncf_apply, sitofp_apply, extui_apply, sitofp_bit]
  show (if IntOp.cmpi .eq _ _ = 1#1 then (1 : EReal) else 0) = _
  rw [broadcastTo_ab1_abc_apply, shapeCast_ab_ab1_apply, shapeCast_1ab_ab_apply, iota_single_apply]
  show (if IntOp.cmpi .eq (x2 (ix3 0 r w)) (BitVec.ofNat 32 l.val) = 1#1 then (1 : EReal) else 0) = _
  exact if_congr (StableHlo.Predicate.cmpi_eq_iff.trans (eq_ofNat_iff _ l)) rfl rfl

/-! ## The block product and the two reductions at an index -/

/-- An [a, b] array cast to [a, 1, b] reads, at (r, u, w), the operand at (r, w). -/
private theorem shapeCast_ab_a1b_apply {α : Type} {a b : ℕ} (v : (⟨2, ![a, b]⟩ : Shape).Idx → α)
    (h : (⟨2, ![a, b]⟩ : Shape).ShapeCasts ⟨3, ![a, 1, b]⟩) (r : Fin a) (u : Fin 1) (w : Fin b) :
    shapeCast ⟨3, ![a, 1, b]⟩ v h (ix3 r u w) = v (ix2 r w) :=
  shapeCast_apply v h _ _ (by
    have hu : u.val = 0 := by omega
    rw [Shape.rowMajor_val_three, Shape.rowMajor_val_two]
    show r.val * b + w.val = (r.val * 1 + u.val) * b + w.val
    rw [hu, Nat.mul_one, Nat.add_zero])

/-- The word 1.0 of the 16-bit format is the number 1. -/
private theorem one_bf16 : (Scalar.ofBits (F := Ideal) .bf16 0x3F80#16 : EReal) = 1 :=
  IdealRules.sign_bit.ideal_onePat .bf16

/- The operand indices of the block product, coordinate by coordinate: the left block is read at
   (row, unit, column), the right block at (row, column, lane). -/
private theorem lhs_0 (j : S128x1x128.Idx) (k : dot_S128x1x512_S128x512x128_S128x1x128_2_1_1_2_0_0.contr.Idx) :
    (dot_S128x1x512_S128x512x128_S128x1x128_2_1_1_2_0_0.lhsIdx j k 0).val = (j 0).val := by
  unfold DotDims.lhsIdx
  rw [dif_pos (show (0 : Fin S128x1x512.rank) ∈ dot_S128x1x512_S128x512x128_S128x1x128_2_1_1_2_0_0.lhsBatch by decide)]
  rfl

private theorem lhs_1 (j : S128x1x128.Idx) (k : dot_S128x1x512_S128x512x128_S128x1x128_2_1_1_2_0_0.contr.Idx) :
    (dot_S128x1x512_S128x512x128_S128x1x128_2_1_1_2_0_0.lhsIdx j k 1).val = (j 1).val := by
  unfold DotDims.lhsIdx
  rw [dif_neg (show ¬(1 : Fin S128x1x512.rank) ∈ dot_S128x1x512_S128x512x128_S128x1x128_2_1_1_2_0_0.lhsBatch by decide),
    dif_pos (show (1 : Fin S128x1x512.rank) ∈ dot_S128x1x512_S128x512x128_S128x1x128_2_1_1_2_0_0.lhsNonContracting by decide)]
  rfl

private theorem lhs_2 (j : S128x1x128.Idx) (k : dot_S128x1x512_S128x512x128_S128x1x128_2_1_1_2_0_0.contr.Idx) :
    (dot_S128x1x512_S128x512x128_S128x1x128_2_1_1_2_0_0.lhsIdx j k 2).val = (k ⟨0, by decide⟩).val :=
  dot_S128x1x512_S128x512x128_S128x1x128_2_1_1_2_0_0.lhsIdx_val_of_single (cl := 2) rfl j k

private theorem rhs_0 (j : S128x1x128.Idx) (k : dot_S128x1x512_S128x512x128_S128x1x128_2_1_1_2_0_0.contr.Idx) :
    (dot_S128x1x512_S128x512x128_S128x1x128_2_1_1_2_0_0.rhsIdx j k 0).val = (j 0).val := by
  unfold DotDims.rhsIdx
  rw [dif_pos (show (0 : Fin S128x512x128.rank) ∈ dot_S128x1x512_S128x512x128_S128x1x128_2_1_1_2_0_0.rhsBatch by decide)]
  rfl

private theorem rhs_1 (j : S128x1x128.Idx) (k : dot_S128x1x512_S128x512x128_S128x1x128_2_1_1_2_0_0.contr.Idx) :
    (dot_S128x1x512_S128x512x128_S128x1x128_2_1_1_2_0_0.rhsIdx j k 1).val = (k ⟨0, by decide⟩).val :=
  dot_S128x1x512_S128x512x128_S128x1x128_2_1_1_2_0_0.rhsIdx_val_of_single (cr := 1) rfl j k

private theorem rhs_2 (j : S128x1x128.Idx) (k : dot_S128x1x512_S128x512x128_S128x1x128_2_1_1_2_0_0.contr.Idx) :
    (dot_S128x1x512_S128x512x128_S128x1x128_2_1_1_2_0_0.rhsIdx j k 2).val = (j 2).val := by
  unfold DotDims.rhsIdx
  rw [dif_neg (show ¬(2 : Fin S128x512x128.rank) ∈ dot_S128x1x512_S128x512x128_S128x1x128_2_1_1_2_0_0.rhsBatch by decide),
    dif_pos (show (2 : Fin S128x512x128.rank) ∈ dot_S128x1x512_S128x512x128_S128x1x128_2_1_1_2_0_0.rhsNonContracting by decide)]
  rfl

/-- The block product into the zero block at (r, u, l): the sum over the 512 columns of the left block at
    (r, u, w) times the right block at (r, w, l). -/
private theorem tile_matmul_apply (lhs : FVec Ideal S128x1x512 .bf16) (rhs : FVec Ideal S128x512x128 .bf16)
    (r : Fin 128) (u : Fin 1) (l : Fin 128) :
    matmul dot_S128x1x512_S128x512x128_S128x1x128_2_1_1_2_0_0 none lhs rhs (constant (F := Ideal) S128x1x128 .f32 0x00000000#32) (ix3 r u l)
      = ∑ w : Fin 512, lhs (ix3 r u w) * rhs (ix3 r w l) := by
  simp only [matmul]
  rw [Ideal.matmul_constant_zero_apply,
    ← Equiv.sum_comp (contrEquiv1 dot_S128x1x512_S128x512x128_S128x1x128_2_1_1_2_0_0 512 rfl rfl).symm]
  refine Finset.sum_congr rfl fun w _ => ?_
  have hk := contrEquiv1_symm_val dot_S128x1x512_S128x512x128_S128x1x128_2_1_1_2_0_0 512 rfl rfl w
  have hl : dot_S128x1x512_S128x512x128_S128x1x128_2_1_1_2_0_0.lhsIdx (ix3 r u l) ((contrEquiv1 dot_S128x1x512_S128x512x128_S128x1x128_2_1_1_2_0_0 512 rfl rfl).symm w) = ix3 r u w :=
    funext fun a => Fin.ext (match a with
      | ⟨0, _⟩ => lhs_0 _ _
      | ⟨1, _⟩ => lhs_1 _ _
      | ⟨2, _⟩ => (lhs_2 _ _).trans hk)
  have hr : dot_S128x1x512_S128x512x128_S128x1x128_2_1_1_2_0_0.rhsIdx (ix3 r u l) ((contrEquiv1 dot_S128x1x512_S128x512x128_S128x1x128_2_1_1_2_0_0 512 rfl rfl).symm w) = ix3 r w l :=
    funext fun a => Fin.ext (match a with
      | ⟨0, _⟩ => rhs_0 _ _
      | ⟨1, _⟩ => (rhs_1 _ _).trans hk
      | ⟨2, _⟩ => rhs_2 _ _)
  rw [hl, hr]

/-- The sum over the tile's 128 rows: the reduction of a [128, 1, 128] block along its first axis at (u, l). -/
private theorem rows_sum_apply (v : FVec Ideal S128x1x128 .f32) (u : Fin 1) (l : Fin 128) :
    multiReduction (F := Ideal) .add [0] S1x128 v 0x00000000#32 reduces_S128x1x128_S1x128 (.inl rfl) rfl (ix2 u l)
      = ∑ r : Fin 128, v (ix3 r u l) :=
  (Ideal.multiReduction_add_single v 0x00000000#32 reduces_S128x1x128_S1x128 (.inl rfl) rfl (ix2 u l)).trans
    (Finset.sum_congr rfl fun r _ => congrArg v (funext fun a => Fin.ext (match a with
      | ⟨0, _⟩ => rfl
      | ⟨1, _⟩ => rfl
      | ⟨2, _⟩ => rfl)))

/-- The sum over the three channels: the reduction of a [3, 128, 512] block along its first axis at (r, w). -/
private theorem chan_sum_apply (v : FVec Ideal S3x128x512 .f32) (r : Fin 128) (w : Fin 512) :
    multiReduction (F := Ideal) .add [0] S128x512 v 0x00000000#32 reduces_S3x128x512_S128x512 (.inl rfl) rfl (ix2 r w)
      = ∑ ch : Fin 3, v (ix3 ch r w) :=
  (Ideal.multiReduction_add_single v 0x00000000#32 reduces_S3x128x512_S128x512 (.inl rfl) rfl (ix2 r w)).trans
    (Finset.sum_congr rfl fun ch _ => congrArg v (funext fun a => Fin.ext (match a with
      | ⟨0, _⟩ => rfl
      | ⟨1, _⟩ => rfl
      | ⟨2, _⟩ => rfl)))

/-- The sums payload at lane l. -/
theorem sums_tile_apply (x0 x1 : Vec Ideal S1x3x128x512 .f32) (x2 : Vec Ideal S1x128x512 .i32)
    (acc : Vec Ideal S1x1x128 .f32) (l : Fin 128) :
    k0_pay6 (F := Ideal) x0 x1 x2 acc (ix3 0 0 l)
      = acc (ix3 0 0 l) + ∑ r : Fin 128, ∑ w : Fin 512,
          (∑ ch : Fin 3, max (x0 (ix4 0 ch r w) - x1 (ix4 0 ch r w)) (-(x0 (ix4 0 ch r w) - x1 (ix4 0 ch r w))))
            * (if (x2 (ix3 0 r w)).toNat = l.val then (1 : EReal) else 0) := by
  unfold k0_pay6
  dsimp only
  rw [addf_apply, shapeCast_self, shapeCast_ab_1ab_apply, rows_sum_apply]
  refine congrArg (acc (ix3 0 0 l) + ·) (Finset.sum_congr rfl fun r _ => ?_)
  rw [tile_matmul_apply]
  refine Finset.sum_congr rfl fun w _ => ?_
  rw [onehot_apply, shapeCast_ab_a1b_apply, truncf_apply, chan_sum_apply]
  refine congrArg (· * _) (Finset.sum_congr rfl fun ch _ => ?_)
  show max (subf _ _ (ix3 ch r w)) (-(subf _ _ (ix3 ch r w))) = _
  rw [subf_apply, shapeCast_1abc_abc_apply, shapeCast_1abc_abc_apply]

/-- The counts payload at lane l. -/
theorem cnts_tile_apply (x2 : Vec Ideal S1x128x512 .i32) (acc : Vec Ideal S1x1x128 .f32) (l : Fin 128) :
    k0_pay1 (F := Ideal) (k0_pay5 x2) acc (ix3 0 0 l)
      = acc (ix3 0 0 l) + ∑ r : Fin 128, ∑ w : Fin 512,
          (if (x2 (ix3 0 r w)).toNat = l.val then (1 : EReal) else 0) := by
  unfold k0_pay1 k0_pay5
  dsimp only
  rw [addf_apply, shapeCast_self, shapeCast_ab_1ab_apply, rows_sum_apply]
  refine congrArg (acc (ix3 0 0 l) + ·) (Finset.sum_congr rfl fun r _ => ?_)
  rw [tile_matmul_apply]
  refine Finset.sum_congr rfl fun w _ => ?_
  rw [onehot_apply, broadcast_apply, one_bf16, one_mul]

end Cert.KernelIdeal.Pay0

end
-- ==== Proof.Spec.lean ====
/-
  The result both programs compute, as one function of the three argument arrays, read over the extended reals.

  Per image b and pixel (h, w): the three channels' absolute differences |x - y| add up to a pixel weight; a pixel
  carries a label, and per image and label the weights and the pixel count are added up over the image, their
  quotient (the count times three, but at least one, below) is the label's average; every average is divided by the
  greatest of them and kept inside [0, 1]; each absolute difference is scaled by one plus its pixel's normalized
  average, and the result is the total of these over all images, channels and pixels, divided by their number.

  The literal words 1.0, 3.0, 0.0, -inf and the element count are kept as their words: both programs carry the
  same ones in the same places, so none of them but 1.0 and 0.0 is ever evaluated.
-/
import Idealize.ShloMosaic.PureOps.Ideal
import Idealize.ShloMosaic.Lib.ValueIdx

noncomputable section

open scoped BigOperators

namespace Cert.Spec

open Idealize.ShloMosaic Idealize.ShloMosaic.ValueIdx

/-- The two float arguments' shape, the label argument's, and the kernel's per-image table's. -/
abbrev SX : Shape := ⟨4, ![16, 3, 512, 512]⟩
abbrev SM : Shape := ⟨3, ![16, 512, 512]⟩
abbrev ST : Shape := ⟨3, ![16, 1, 128]⟩

abbrev one32 : EReal := Ideal.ofBits .f32 0x3F800000#32
abbrev zero32 : EReal := Ideal.ofBits .f32 0x00000000#32
abbrev three32 : EReal := Ideal.ofBits .f32 0x40400000#32
abbrev ninf32 : EReal := Ideal.ofBits .f32 0xFF800000#32
abbrev count32 : EReal := Ideal.ofBits .f32 0x4B400000#32

variable (X Y : SX.Idx → EReal) (M : SM.Idx → BitVec 32)

/-- The absolute difference of the two images at one entry. -/
def dabs (b : Fin 16) (ch : Fin 3) (h w : Fin 512) : EReal :=
  max (X (ix4 b ch h w) - Y (ix4 b ch h w)) (-(X (ix4 b ch h w) - Y (ix4 b ch h w)))

/-- A pixel's weight: its three channels' absolute differences added up. -/
def wc (b : Fin 16) (h w : Fin 512) : EReal := ∑ ch : Fin 3, dabs X Y b ch h w

/-- Whether the pixel's label is c, as the number 1 or 0. -/
def hot (b : Fin 16) (h w : Fin 512) (c : Fin 128) : EReal := if (M (ix3 b h w)).toNat = c.val then 1 else 0

/-- The pixel's label, as a table column. -/
def lab (b : Fin 16) (h w : Fin 512) : Fin 128 := ⟨(M (ix3 b h w)).toNat % 128, Nat.mod_lt _ (by decide)⟩

/-- Row r of row tile j: the kernels walk an image in four tiles of 128 rows. -/
def row (j : Fin 4) (r : Fin 128) : Fin 512 := ⟨128 * j.val + r.val, by have := j.isLt; have := r.isLt; omega⟩

/-- Per image and label: the weights of the pixels carrying the label, added up; -/
def sumsT (b : Fin 16) (c : Fin 128) : EReal := ∑ h : Fin 512, ∑ w : Fin 512, wc X Y b h w * hot M b h w c

/-- and how many pixels carry it. -/
def cntsT (b : Fin 16) (c : Fin 128) : EReal := ∑ h : Fin 512, ∑ w : Fin 512, hot M b h w c

/-- The label's average weight per channel entry (an empty label's divisor is the 1.0 floor). -/
def avgT (b : Fin 16) (c : Fin 128) : EReal := Ideal.div (sumsT X Y M b c) (max (cntsT M b c * three32) one32)

/-- The greatest average over all images and table columns. -/
def gmaxT : EReal := (Finset.univ : Finset ST.Idx).fold max ninf32 (fun i => avgT X Y M (i 0) (i 2))

/-- An average divided by the greatest and kept inside [0, 1]. -/
def normT (b : Fin 16) (c : Fin 128) : EReal := min one32 (max zero32 (Ideal.div (avgT X Y M b c) (gmaxT X Y M)))

/-- The normalized averages as the table the second kernel is handed. -/
def normTab : ST.Idx → EReal := fun i => normT X Y M (i 0) (i 2)

/-- One image's total of the absolute differences, each scaled by one plus its pixel's entry of a table N. -/
def outG (N : ST.Idx → EReal) (b : Fin 16) : EReal :=
  ∑ h : Fin 512, ∑ w : Fin 512, ∑ ch : Fin 3, dabs X Y b ch h w * (N (ix3 b 0 (lab M b h w)) * one32 + one32)

/-- One image's total of the scaled absolute differences. -/
def outT (b : Fin 16) : EReal := outG X Y M (normTab X Y M) b

/-- The result: the images' totals added up, divided by the number of entries. -/
def resT : EReal := Ideal.div (∑ b : Fin 16, outT X Y M b) count32

end Cert.Spec

end
-- ==== Proof.SpecLaws.lean ====
/-
  The laws of the specification that the two programs' readings lean on: an image's rows added up tile by tile;
  a one-hot row of a table picking the pixel's entry; and the greatest average being the same whether it is taken
  over the whole table or over the pixels' own entries (an empty label's average is 0, every average is at least 0,
  and every image has pixels).
-/
import proofs.«400574_j67869073211922_4_alg».proof.Proof.Spec
import Idealize.ShloMosaic.PureOps.IdealRules
import Mathlib.Data.EReal.Inv
import Mathlib.Data.Finset.Fold
import Mathlib.Logic.Equiv.Fin.Basic

noncomputable section

open scoped BigOperators

namespace Cert.Spec

open Idealize.ShloMosaic Idealize.ShloMosaic.ValueIdx

variable (X Y : SX.Idx → EReal) (M : SM.Idx → BitVec 32)

/-- The word 1.0 is the number one. -/
theorem one32_eq : one32 = 1 := IdealRules.sign_bit.ideal_onePat .f32

/-- A sum over an image's 512 rows is the four row tiles' sums, added in tile order: row 128 j + r is row r of tile j. -/
theorem sum_rows (f : Fin 512 → EReal) :
    ∑ h : Fin 512, f h = (∑ r : Fin 128, f (row 0 r)) + (∑ r : Fin 128, f (row 1 r)) + (∑ r : Fin 128, f (row 2 r))
      + ∑ r : Fin 128, f (row 3 r) := by
  have e : ∑ p : Fin 4 × Fin 128, f (row p.1 p.2) = ∑ h : Fin 512, f h :=
    Fintype.sum_equiv (finProdFinEquiv (m := 4) (n := 128)) (fun p => f (row p.1 p.2)) f fun p =>
      congrArg f (Fin.ext (by show 128 * p.1.val + p.2.val = p.2.val + 128 * p.1.val; omega))
  rw [← e, Fintype.sum_prod_type, Fin.sum_univ_four]

/-- Against a table row g, the pixel's one-hot row picks the entry at the pixel's label. -/
theorem hot_pick (b : Fin 16) (h w : Fin 512) (hlt : (M (ix3 b h w)).toNat < 128) (g : Fin 128 → EReal) :
    ∑ k : Fin 128, (if (M (ix3 b h w)).toNat = k.val then (1 : EReal) else 0) * g k = g (lab M b h w) := by
  have hl : (lab M b h w).val = (M (ix3 b h w)).toNat := Nat.mod_eq_of_lt hlt
  rw [Finset.sum_eq_single (lab M b h w)]
  · rw [if_pos hl.symm, one_mul]
  · intro k _ hk
    rw [if_neg (fun e => hk (Fin.ext (e.symm.trans hl.symm))), zero_mul]
  · intro hn
    exact absurd (Finset.mem_univ _) hn

/-- An absolute difference is at least 0. -/
theorem dabs_nonneg (b : Fin 16) (ch : Fin 3) (h w : Fin 512) : 0 ≤ dabs X Y b ch h w := by
  unfold dabs
  rcases le_total 0 (X (ix4 b ch h w) - Y (ix4 b ch h w)) with h0 | h0
  · exact le_max_of_le_left h0
  · exact le_max_of_le_right (EReal.neg_nonneg.mpr h0)

theorem wc_nonneg (b : Fin 16) (h w : Fin 512) : 0 ≤ wc X Y b h w :=
  Finset.sum_nonneg fun ch _ => dabs_nonneg X Y b ch h w

theorem hot_nonneg (b : Fin 16) (h w : Fin 512) (c : Fin 128) : 0 ≤ hot M b h w c := by
  unfold hot
  split
  · exact zero_le_one
  · exact le_refl _

theorem sumsT_nonneg (b : Fin 16) (c : Fin 128) : 0 ≤ sumsT X Y M b c :=
  Finset.sum_nonneg fun h _ => Finset.sum_nonneg fun w _ => EReal.mul_nonneg (wc_nonneg X Y b h w) (hot_nonneg M b h w c)

/-- The divisor of an average is at least the number one. -/
theorem one_le_divisor (b : Fin 16) (c : Fin 128) : 1 ≤ max (cntsT M b c * three32) one32 := by
  rw [one32_eq]; exact le_max_right _ _

/-- Every average is at least 0: a sum of products of numbers at least 0, over a divisor at least 1. -/
theorem avgT_nonneg (b : Fin 16) (c : Fin 128) : 0 ≤ avgT X Y M b c := by
  unfold avgT Ideal.div
  have hd : (1 : EReal) ≤ max (cntsT M b c * three32) one32 := one_le_divisor M b c
  have hpos : (0 : EReal) < max (cntsT M b c * three32) one32 := lt_of_lt_of_le zero_lt_one hd
  rw [if_neg (ne_of_gt hpos)]
  exact EReal.mul_nonneg (sumsT_nonneg X Y M b c) (EReal.inv_nonneg_of_nonneg hpos.le)

/-- A label no pixel of the image carries has average 0: no weight, no count, the divisor the floor 1. -/
theorem avgT_empty (b : Fin 16) (c : Fin 128) (hc : ∀ h w, (M (ix3 b h w)).toNat ≠ c.val) : avgT X Y M b c = 0 := by
  have hh : ∀ h w, hot M b h w c = 0 := fun h w => by unfold hot; exact if_neg (hc h w)
  have hs : sumsT X Y M b c = 0 := by
    unfold sumsT
    exact Finset.sum_eq_zero fun h _ => Finset.sum_eq_zero fun w _ => by rw [hh h w, mul_zero]
  have hn : cntsT M b c = 0 := by
    unfold cntsT
    exact Finset.sum_eq_zero fun h _ => Finset.sum_eq_zero fun w _ => hh h w
  unfold avgT Ideal.div
  rw [hs, hn, zero_mul, one32_eq, max_eq_right (zero_le_one (α := EReal)), if_neg one_ne_zero, zero_mul]

/-- The greatest of the pixels' own averages is the greatest over the whole table: every pixel's average is a table
    entry; a table entry whose label some pixel of the image carries is that pixel's average; any other is 0, below
    the (nonnegative) average of the image's first pixel. -/
theorem gmax_pixels (hM : ∀ i, (M i).toNat < 64) :
    (Finset.univ : Finset (⟨4, ![16, 1, 512, 512]⟩ : Shape).Idx).fold max ninf32
        (fun i => avgT X Y M (i 0) (lab M (i 0) (i 2) (i 3)))
      = gmaxT X Y M := by
  unfold gmaxT
  apply le_antisymm
  · rw [Finset.fold_max_le]
    refine ⟨(Finset.le_fold_max _).mpr (Or.inl (le_refl _)), fun i _ => ?_⟩
    exact (Finset.le_fold_max _).mpr (Or.inr ⟨ix3 (i 0) 0 (lab M (i 0) (i 2) (i 3)), Finset.mem_univ _, le_refl _⟩)
  · rw [Finset.fold_max_le]
    refine ⟨(Finset.le_fold_max _).mpr (Or.inl (le_refl _)), fun j _ => ?_⟩
    by_cases hex : ∃ h w, (M (ix3 (j 0) h w)).toNat = (j 2).val
    · obtain ⟨h, w, hw⟩ := hex
      refine (Finset.le_fold_max _).mpr (Or.inr ⟨ix4 (j 0) 0 h w, Finset.mem_univ _, ?_⟩)
      have hl : lab M (j 0) h w = j 2 := Fin.ext (by
        show (M (ix3 (j 0) h w)).toNat % 128 = (j 2).val
        rw [Nat.mod_eq_of_lt (lt_trans (hM _) (by decide)), hw])
      show avgT X Y M (j 0) (j 2) ≤ avgT X Y M (j 0) (lab M (j 0) h w)
      rw [hl]
    · have hc : ∀ h w, (M (ix3 (j 0) h w)).toNat ≠ (j 2).val := fun h w e => hex ⟨h, w, e⟩
      rw [avgT_empty X Y M (j 0) (j 2) hc]
      exact (Finset.le_fold_max _).mpr (Or.inr ⟨ix4 (j 0) 0 0 0, Finset.mem_univ _, avgT_nonneg X Y M _ _⟩)

end Cert.Spec

end
-- ==== Proof.K0Value.lean ====
/-
  The first kernel's two result arrays after its run: the per-image, per-label weight sums and pixel counts.

  Image b's block of either array is written back once, after the image's fourth row tile; by then the block holds
  the zero block plus the four tiles' contributions in tile order, each tile's contribution the payload's sum over
  that tile's rows of the image; four tiles of 128 rows are the image's 512 rows.
-/
import proofs.«400574_j67869073211922_4_alg».proof.Proof.Gen.KernelIdeal.Frame
import proofs.«400574_j67869073211922_4_alg».proof.Proof.KPieces
import proofs.«400574_j67869073211922_4_alg».proof.Proof.KPay0
import proofs.«400574_j67869073211922_4_alg».proof.Proof.SpecLaws
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Value0

open Cert.KernelIdeal Cert.KernelIdeal.Gen

variable (V : (c : Dev nD) → (b : Ref sig .tc) → Buf (Elt Ideal) ((c : Thread nD τ).loc b))

/-- The three argument arrays and a point's three input blocks, at their literal types. -/
private abbrev arrX (c : Dev nD) : Vec Ideal S16x3x512x512 .f32 := V c main_arg0
private abbrev arrY (c : Dev nD) : Vec Ideal S16x3x512x512 .f32 := V c main_arg1
private abbrev arrM (c : Dev nD) : Vec Ideal S16x512x512 .i32 := V c main_arg2
private abbrev blkX (c : Dev nD) (t : Fin cfg0.N) : Vec Ideal S1x3x128x512 .f32 := iblk0 V c 0 t
private abbrev blkY (c : Dev nD) (t : Fin cfg0.N) : Vec Ideal S1x3x128x512 .f32 := iblk0 V c 1 t
private abbrev blkM (c : Dev nD) (t : Fin cfg0.N) : Vec Ideal S1x128x512 .i32 := iblk0 V c 2 t

/-- The index maps over the grid: point t is image t / 4, row tile t % 4; the two result windows sit at image t / 4. -/
private theorem idx_facts : ∀ t : Fin cfg0.N,
    win0_0.index t (0 : Fin 4) = t.val / 4 ∧ win0_0.index t (1 : Fin 4) = 0 ∧ win0_0.index t (2 : Fin 4) = t.val % 4 ∧ win0_0.index t (3 : Fin 4) = 0
    ∧ win0_1.index t (0 : Fin 4) = t.val / 4 ∧ win0_1.index t (1 : Fin 4) = 0 ∧ win0_1.index t (2 : Fin 4) = t.val % 4 ∧ win0_1.index t (3 : Fin 4) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- Row r, column w of a point's block of the first argument is row 128 (t % 4) + r of image t / 4. -/
private theorem blkX_apply (c : Dev nD) (t : Fin cfg0.N) (b : Fin 16) (j : Fin 4) (hb : t.val / 4 = b.val) (hj : t.val % 4 = j.val)
    (ch : Fin 3) (r : Fin 128) (w : Fin 512) :
    blkX V c t (ix4 0 ch r w) = arrX V c (ix4 b ch (Cert.Spec.row j r) w) := by
  obtain ⟨e0, e1, e2, e3, -⟩ := idx_facts t
  unfold blkX iblk0
  rw [View.read_apply]
  show V c main_arg0 (((cfg0.win 0).blk t).view.emb (ix4 0 ch r w)) = V c main_arg0 (ix4 b ch (Cert.Spec.row j r) w)
  refine congrArg (V c main_arg0) (funext fun a => Fin.ext ?_)
  match a with
  | ⟨0, _⟩ => show win0_0.index t (0 : Fin 4) * 1 + 1 * 0 = b.val; omega
  | ⟨1, _⟩ => show win0_0.index t (1 : Fin 4) * 3 + 1 * ch.val = ch.val; omega
  | ⟨2, _⟩ => show win0_0.index t (2 : Fin 4) * 128 + 1 * r.val = 128 * j.val + r.val; omega
  | ⟨3, _⟩ => show win0_0.index t (3 : Fin 4) * 512 + 1 * w.val = w.val; omega

/-- The same for the second argument, -/
private theorem blkY_apply (c : Dev nD) (t : Fin cfg0.N) (b : Fin 16) (j : Fin 4) (hb : t.val / 4 = b.val) (hj : t.val % 4 = j.val)
    (ch : Fin 3) (r : Fin 128) (w : Fin 512) :
    blkY V c t (ix4 0 ch r w) = arrY V c (ix4 b ch (Cert.Spec.row j r) w) := by
  obtain ⟨-, -, -, -, e0, e1, e2, e3, -⟩ := idx_facts t
  unfold blkY iblk0
  rw [View.read_apply]
  show V c main_arg1 (((cfg0.win 1).blk t).view.emb (ix4 0 ch r w)) = V c main_arg1 (ix4 b ch (Cert.Spec.row j r) w)
  refine congrArg (V c main_arg1) (funext fun a => Fin.ext ?_)
  match a with
  | ⟨0, _⟩ => show win0_1.index t (0 : Fin 4) * 1 + 1 * 0 = b.val; omega
  | ⟨1, _⟩ => show win0_1.index t (1 : Fin 4) * 3 + 1 * ch.val = ch.val; omega
  | ⟨2, _⟩ => show win0_1.index t (2 : Fin 4) * 128 + 1 * r.val = 128 * j.val + r.val; omega
  | ⟨3, _⟩ => show win0_1.index t (3 : Fin 4) * 512 + 1 * w.val = w.val; omega

/-- and for the labels. -/
private theorem blkM_apply (c : Dev nD) (t : Fin cfg0.N) (b : Fin 16) (j : Fin 4) (hb : t.val / 4 = b.val) (hj : t.val % 4 = j.val)
    (r : Fin 128) (w : Fin 512) :
    blkM V c t (ix3 0 r w) = arrM V c (ix3 b (Cert.Spec.row j r) w) := by
  obtain ⟨-, -, -, -, -, -, -, -, e0, e1, e2, -⟩ := idx_facts t
  unfold blkM iblk0
  rw [View.read_apply]
  show V c main_arg2 (((cfg0.win 2).blk t).view.emb (ix3 0 r w)) = V c main_arg2 (ix3 b (Cert.Spec.row j r) w)
  refine congrArg (V c main_arg2) (funext fun a => Fin.ext ?_)
  match a with
  | ⟨0, _⟩ => show win0_2.index t (0 : Fin 3) * 1 + 1 * 0 = b.val; omega
  | ⟨1, _⟩ => show win0_2.index t (1 : Fin 3) * 128 + 1 * r.val = 128 * j.val + r.val; omega
  | ⟨2, _⟩ => show win0_2.index t (2 : Fin 3) * 512 + 1 * w.val = w.val; omega

/-- One row tile's share of lane l of the sums: over the tile's rows and columns, the pixel's channel-summed absolute
    difference where the pixel's label is l; -/
private def tileS (x0 x1 : Vec Ideal S1x3x128x512 .f32) (x2 : Vec Ideal S1x128x512 .i32) (l : Fin 128) : EReal :=
  ∑ r : Fin 128, ∑ w : Fin 512,
    (∑ ch : Fin 3, max (x0 (ix4 0 ch r w) - x1 (ix4 0 ch r w)) (-(x0 (ix4 0 ch r w) - x1 (ix4 0 ch r w))))
      * (if (x2 (ix3 0 r w)).toNat = l.val then (1 : EReal) else 0)

/-- and of the counts: how many of the tile's pixels carry label l. -/
private def tileC (x2 : Vec Ideal S1x128x512 .i32) (l : Fin 128) : EReal :=
  ∑ r : Fin 128, ∑ w : Fin 512, (if (x2 (ix3 0 r w)).toNat = l.val then (1 : EReal) else 0)

/-- A tile's share, its blocks read as rows of image b, is the specification's summand over the tile's rows. -/
private theorem tileS_eq (x0 x1 : Vec Ideal S1x3x128x512 .f32) (x2 : Vec Ideal S1x128x512 .i32)
    (X Y : Cert.Spec.SX.Idx → EReal) (M : Cert.Spec.SM.Idx → BitVec 32) (b : Fin 16) (j : Fin 4)
    (hX : ∀ (ch : Fin 3) (r : Fin 128) (w : Fin 512), x0 (ix4 0 ch r w) = X (ix4 b ch (Cert.Spec.row j r) w))
    (hY : ∀ (ch : Fin 3) (r : Fin 128) (w : Fin 512), x1 (ix4 0 ch r w) = Y (ix4 b ch (Cert.Spec.row j r) w))
    (hM : ∀ (r : Fin 128) (w : Fin 512), x2 (ix3 0 r w) = M (ix3 b (Cert.Spec.row j r) w)) (l : Fin 128) :
    tileS x0 x1 x2 l
      = ∑ r : Fin 128, ∑ w : Fin 512, Cert.Spec.wc X Y b (Cert.Spec.row j r) w * Cert.Spec.hot M b (Cert.Spec.row j r) w l := by
  unfold tileS Cert.Spec.wc Cert.Spec.hot Cert.Spec.dabs
  simp only [hX, hY, hM]

/-- The same for a tile's share of the counts. -/
private theorem tileC_eq (x2 : Vec Ideal S1x128x512 .i32) (M : Cert.Spec.SM.Idx → BitVec 32) (b : Fin 16) (j : Fin 4)
    (hM : ∀ (r : Fin 128) (w : Fin 512), x2 (ix3 0 r w) = M (ix3 b (Cert.Spec.row j r) w)) (l : Fin 128) :
    tileC x2 l = ∑ r : Fin 128, ∑ w : Fin 512, Cert.Spec.hot M b (Cert.Spec.row j r) w l := by
  unfold tileC Cert.Spec.hot
  simp only [hM]

/-- At a row tile 0 lane l of the two blocks is the zero block's entry plus the tile's share; -/
private theorem sums_first_apply (c : Dev nD) (t : Fin cfg0.N) (h0 : t.val % 4 = 0) (l : Fin 128) :
    (outsAt0 V c t.val t.isLt).1 (ix3 0 0 l) = 0 + tileS (blkX V c t) (blkY V c t) (blkM V c t) l := by
  rw [outsAt0_A V c t h0]
  dsimp only
  refine (congrFun (Pieces.sums_first (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (blkX V c t) (blkY V c t) (blkM V c t)) (ix3 0 0 l)).trans ?_
  rw [Pay0.sums_tile_apply, Pay0.zero_sums]
  rfl

/-- the same for the counts; -/
private theorem cnts_first_apply (c : Dev nD) (t : Fin cfg0.N) (h0 : t.val % 4 = 0) (l : Fin 128) :
    (outsAt0 V c t.val t.isLt).2 (ix3 0 0 l) = 0 + tileC (blkM V c t) l := by
  rw [outsAt0_A V c t h0]
  dsimp only
  refine (congrFun (Pieces.cnts_first (F := Ideal) c (grid0.coords t) (ms0_0 t) (hs0_0 t) (ms0_1 t) (hs0_1 t) (ms0_2 t) (hs0_2 t)
    (ms0_3 t) (hs0_3 t) (ms0_4 t) (hs0_4 t) ((hcond0_0 t).mpr h0) (blkX V c t) (blkY V c t) (blkM V c t)) (ix3 0 0 l)).trans ?_
  rw [Pay0.cnts_tile_apply, Pay0.zero_cnts]
  rfl

/-- at a later row tile, the entry the point before left plus the tile's share. -/
private theorem sums_next_apply (c : Dev nD) (t s : Fin cfg0.N) (hs : s.val = t.val - 1) (h0 : ¬t.val % 4 = 0) (l : Fin 128) :
    (outsAt0 V c t.val t.isLt).1 (ix3 0 0 l)
      = (outsAt0 V c s.val s.isLt).1 (ix3 0 0 l) + tileS (blkX V c t) (blkY V c t) (blkM V c t) l := by
  obtain ⟨s, hlt⟩ := s
  dsimp only at hs
  subst hs
  rw [outsAt0_B V c t h0]
  dsimp only
  refine (congrFun (Pieces.sums_next (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (blkX V c t) (blkY V c t) (blkM V c t)
    (outsAt0 V c (t.val - 1) hlt).1 (outsAt0 V c (t.val - 1) hlt).2) (ix3 0 0 l)).trans ?_
  rw [Pay0.sums_tile_apply]
  rfl

/-- The same for the counts. -/
private theorem cnts_next_apply (c : Dev nD) (t s : Fin cfg0.N) (hs : s.val = t.val - 1) (h0 : ¬t.val % 4 = 0) (l : Fin 128) :
    (outsAt0 V c t.val t.isLt).2 (ix3 0 0 l) = (outsAt0 V c s.val s.isLt).2 (ix3 0 0 l) + tileC (blkM V c t) l := by
  obtain ⟨s, hlt⟩ := s
  dsimp only at hs
  subst hs
  rw [outsAt0_B V c t h0]
  dsimp only
  refine (congrFun (Pieces.cnts_next (F := Ideal) c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (blkX V c t) (blkY V c t) (blkM V c t)
    (outsAt0 V c (t.val - 1) hlt).1 (outsAt0 V c (t.val - 1) hlt).2) (ix3 0 0 l)).trans ?_
  rw [Pay0.cnts_tile_apply]
  rfl

/-- The point of image b and row tile j. -/
private def pt (b : Fin 16) (j : Fin 4) : Fin cfg0.N :=
  ⟨4 * b.val + j.val, by have := b.isLt; have := j.isLt; rw [show cfg0.N = 64 from N_0]; omega⟩

/-- After image b's fourth row tile, lane l of the sums block is the label's weight sum over the image: the zero
    entry plus the four tiles' shares in tile order, the four tiles' rows being the image's rows. -/
private theorem sums_at (c : Dev nD) (b : Fin 16) (l : Fin 128) :
    (outsAt0 V c (pt b 3).val (pt b 3).isLt).1 (ix3 0 0 l)
      = Cert.Spec.sumsT (arrX V c) (arrY V c) (arrM V c) b l := by
  have v0 : (pt b 0).val = 4 * b.val + 0 := rfl
  have v1 : (pt b 1).val = 4 * b.val + 1 := rfl
  have v2 : (pt b 2).val = 4 * b.val + 2 := rfl
  have v3 : (pt b 3).val = 4 * b.val + 3 := rfl
  have e : ∀ j : Fin 4, tileS (blkX V c (pt b j)) (blkY V c (pt b j)) (blkM V c (pt b j)) l
      = ∑ r : Fin 128, ∑ w : Fin 512, Cert.Spec.wc (arrX V c) (arrY V c) b (Cert.Spec.row j r) w
          * Cert.Spec.hot (arrM V c) b (Cert.Spec.row j r) w l := fun j =>
    have hb : (pt b j).val / 4 = b.val := by show (4 * b.val + j.val) / 4 = b.val; have := j.isLt; omega
    have hj : (pt b j).val % 4 = j.val := by show (4 * b.val + j.val) % 4 = j.val; have := j.isLt; omega
    tileS_eq (blkX V c (pt b j)) (blkY V c (pt b j)) (blkM V c (pt b j)) (arrX V c) (arrY V c) (arrM V c) b j
      (fun ch r w => blkX_apply V c (pt b j) b j hb hj ch r w) (fun ch r w => blkY_apply V c (pt b j) b j hb hj ch r w)
      (fun r w => blkM_apply V c (pt b j) b j hb hj r w) l
  rw [sums_next_apply V c (pt b 3) (pt b 2) (by omega) (by omega) l,
    sums_next_apply V c (pt b 2) (pt b 1) (by omega) (by omega) l,
    sums_next_apply V c (pt b 1) (pt b 0) (by omega) (by omega) l,
    sums_first_apply V c (pt b 0) (by omega) l, e 0, e 1, e 2, e 3, zero_add]
  unfold Cert.Spec.sumsT
  exact (Cert.Spec.sum_rows (fun h : Fin 512 => ∑ w : Fin 512, Cert.Spec.wc (arrX V c) (arrY V c) b h w * Cert.Spec.hot (arrM V c) b h w l)).symm

/-- Likewise lane l of the counts block is the number of the image's pixels carrying label l. -/
private theorem cnts_at (c : Dev nD) (b : Fin 16) (l : Fin 128) :
    (outsAt0 V c (pt b 3).val (pt b 3).isLt).2 (ix3 0 0 l) = Cert.Spec.cntsT (arrM V c) b l := by
  have v0 : (pt b 0).val = 4 * b.val + 0 := rfl
  have v1 : (pt b 1).val = 4 * b.val + 1 := rfl
  have v2 : (pt b 2).val = 4 * b.val + 2 := rfl
  have v3 : (pt b 3).val = 4 * b.val + 3 := rfl
  have e : ∀ j : Fin 4, tileC (blkM V c (pt b j)) l
      = ∑ r : Fin 128, ∑ w : Fin 512, Cert.Spec.hot (arrM V c) b (Cert.Spec.row j r) w l := fun j =>
    have hb : (pt b j).val / 4 = b.val := by show (4 * b.val + j.val) / 4 = b.val; have := j.isLt; omega
    have hj : (pt b j).val % 4 = j.val := by show (4 * b.val + j.val) % 4 = j.val; have := j.isLt; omega
    tileC_eq (blkM V c (pt b j)) (arrM V c) b j (fun r w => blkM_apply V c (pt b j) b j hb hj r w) l
  rw [cnts_next_apply V c (pt b 3) (pt b 2) (by omega) (by omega) l,
    cnts_next_apply V c (pt b 2) (pt b 1) (by omega) (by omega) l,
    cnts_next_apply V c (pt b 1) (pt b 0) (by omega) (by omega) l,
    cnts_first_apply V c (pt b 0) (by omega) l, e 0, e 1, e 2, e 3, zero_add]
  unfold Cert.Spec.cntsT
  exact (Cert.Spec.sum_rows (fun h : Fin 512 => ∑ w : Fin 512, Cert.Spec.hot (arrM V c) b h w l)).symm

/-- What a write-back of the sums moves is its block of the table of weight sums: the point is some image's fourth
    row tile, and the block's one row is that image's row of the table. -/
private theorem flushed_sums (c : Dev nD) (t : Fin cfg0.N) (hf : (cfg0.win 3).flush t = true) :
    (dat0 V c).flushed 3 t = ((cfg0.win 3).blk t).view.read (Elt Ideal)
      (fun i : S16x1x128.Idx => Cert.Spec.sumsT (V c main_arg0) (V c main_arg1) (V c main_arg2) (i 0) (i 2)) := by
  have h3 : t.val % 4 = 3 := (flush0_3 t).mp hf
  have hN : t.val < 64 := lt_of_lt_of_eq t.isLt (show cfg0.N = 64 from N_0)
  obtain ⟨b, rfl⟩ : ∃ b : Fin 16, t = pt b 3 :=
    ⟨⟨t.val / 4, by omega⟩, Fin.ext (by show t.val = 4 * (t.val / 4) + 3; omega)⟩
  show (cfg0.win 3).cut (grid0.coords (pt b 3)) ((dat0 V c).after 3 (pt b 3)) = _
  rw [after0_3]
  funext j
  rw [View.read_apply]
  have hl : (j 2).val < 128 := (j 2).isLt
  have h0 : (j 0).val < 1 := (j 0).isLt
  have h1 : (j 1).val < 1 := (j 1).isLt
  have hj : (cfg0.win 3).xinj (grid0.coords (pt b 3)) j = (ix3 0 0 ⟨(j 2).val, hl⟩ : S1x1x128.Idx) := by
    funext a
    apply Fin.ext
    match a with
    | ⟨0, _⟩ => show (j 0).val = 0; omega
    | ⟨1, _⟩ => show (j 1).val = 0; omega
    | ⟨2, _⟩ => rfl
  obtain ⟨-, -, -, -, -, -, -, -, -, -, -, e0, e1, e2, -⟩ := idx_facts (pt b 3)
  show (outsAt0 V c (pt b 3).val (pt b 3).isLt).1 ((cfg0.win 3).xinj (grid0.coords (pt b 3)) j)
    = Cert.Spec.sumsT (V c main_arg0) (V c main_arg1) (V c main_arg2) (((cfg0.win 3).blk (pt b 3)).view.emb j 0)
        (((cfg0.win 3).blk (pt b 3)).view.emb j 2)
  rw [hj, sums_at]
  have v3 : (pt b 3).val = 4 * b.val + 3 := rfl
  have hb : b = ((cfg0.win 3).blk (pt b 3)).view.emb j 0 :=
    Fin.ext (by show b.val = win0_3.index (pt b 3) (0 : Fin 3) * 1 + 1 * (j 0).val; omega)
  have hl' : (⟨(j 2).val, hl⟩ : Fin 128) = ((cfg0.win 3).blk (pt b 3)).view.emb j 2 :=
    Fin.ext (by show (j 2).val = win0_3.index (pt b 3) (2 : Fin 3) * 128 + 1 * (j 2).val; omega)
  exact congrArg₂ (Cert.Spec.sumsT (V c main_arg0) (V c main_arg1) (V c main_arg2)) hb hl'

/-- Image b's row of either result array lies in the block written back after the image's fourth row tile. -/
private theorem cover_sums (i : S16x1x128.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 128 := (i 2).isLt
  have v3 : (pt (i 0) 3).val = 4 * (i 0).val + 3 := rfl
  refine ⟨pt (i 0) 3, (flush0_3 _).mpr (by omega), ?_⟩
  obtain ⟨-, -, -, -, -, -, -, -, -, -, -, e0, e1, e2, -⟩ := idx_facts (pt (i 0) 3)
  show i ∈ ((View.whole main_v0_0).slice (win0_3.rect (pt (i 0) 3))).set
  rw [View.set_slice_whole, Rect.mem_set_unit]
  intro a
  match a with
  | ⟨0, _⟩ => show win0_3.index (pt (i 0) 3) (0 : Fin 3) * 1 ≤ (i 0).val ∧ (i 0).val < win0_3.index (pt (i 0) 3) (0 : Fin 3) * 1 + 1; omega
  | ⟨1, _⟩ => show win0_3.index (pt (i 0) 3) (1 : Fin 3) * 1 ≤ (i 1).val ∧ (i 1).val < win0_3.index (pt (i 0) 3) (1 : Fin 3) * 1 + 1; omega
  | ⟨2, _⟩ => show win0_3.index (pt (i 0) 3) (2 : Fin 3) * 128 ≤ (i 2).val ∧ (i 2).val < win0_3.index (pt (i 0) 3) (2 : Fin 3) * 128 + 128; omega

/-- What a write-back of the counts moves is its block of the table of pixel counts. -/
private theorem flushed_cnts (c : Dev nD) (t : Fin cfg0.N) (hf : (cfg0.win 4).flush t = true) :
    (dat0 V c).flushed 4 t = ((cfg0.win 4).blk t).view.read (Elt Ideal)
      (fun i : S16x1x128.Idx => Cert.Spec.cntsT (V c main_arg2) (i 0) (i 2)) := by
  have h3 : t.val % 4 = 3 := (flush0_4 t).mp hf
  have hN : t.val < 64 := lt_of_lt_of_eq t.isLt (show cfg0.N = 64 from N_0)
  obtain ⟨b, rfl⟩ : ∃ b : Fin 16, t = pt b 3 :=
    ⟨⟨t.val / 4, by omega⟩, Fin.ext (by show t.val = 4 * (t.val / 4) + 3; omega)⟩
  show (cfg0.win 4).cut (grid0.coords (pt b 3)) ((dat0 V c).after 4 (pt b 3)) = _
  rw [after0_4]
  funext j
  rw [View.read_apply]
  have hl : (j 2).val < 128 := (j 2).isLt
  have h0 : (j 0).val < 1 := (j 0).isLt
  have h1 : (j 1).val < 1 := (j 1).isLt
  have hj : (cfg0.win 4).xinj (grid0.coords (pt b 3)) j = (ix3 0 0 ⟨(j 2).val, hl⟩ : S1x1x128.Idx) := by
    funext a
    apply Fin.ext
    match a with
    | ⟨0, _⟩ => show (j 0).val = 0; omega
    | ⟨1, _⟩ => show (j 1).val = 0; omega
    | ⟨2, _⟩ => rfl
  obtain ⟨-, -, -, -, -, -, -, -, -, -, -, -, -, -, e0, e1, e2⟩ := idx_facts (pt b 3)
  show (outsAt0 V c (pt b 3).val (pt b 3).isLt).2 ((cfg0.win 4).xinj (grid0.coords (pt b 3)) j)
    = Cert.Spec.cntsT (V c main_arg2) (((cfg0.win 4).blk (pt b 3)).view.emb j 0) (((cfg0.win 4).blk (pt b 3)).view.emb j 2)
  rw [hj, cnts_at]
  have v3 : (pt b 3).val = 4 * b.val + 3 := rfl
  have hb : b = ((cfg0.win 4).blk (pt b 3)).view.emb j 0 :=
    Fin.ext (by show b.val = win0_4.index (pt b 3) (0 : Fin 3) * 1 + 1 * (j 0).val; omega)
  have hl' : (⟨(j 2).val, hl⟩ : Fin 128) = ((cfg0.win 4).blk (pt b 3)).view.emb j 2 :=
    Fin.ext (by show (j 2).val = win0_4.index (pt b 3) (2 : Fin 3) * 128 + 1 * (j 2).val; omega)
  exact congrArg₂ (Cert.Spec.cntsT (V c main_arg2)) hb hl'

/-- The same for the counts. -/
private theorem cover_cnts (i : S16x1x128.Idx) :
    ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 128 := (i 2).isLt
  have v3 : (pt (i 0) 3).val = 4 * (i 0).val + 3 := rfl
  refine ⟨pt (i 0) 3, (flush0_4 _).mpr (by omega), ?_⟩
  obtain ⟨-, -, -, -, -, -, -, -, -, -, -, -, -, -, e0, e1, e2⟩ := idx_facts (pt (i 0) 3)
  show i ∈ ((View.whole main_v0_1).slice (win0_4.rect (pt (i 0) 3))).set
  rw [View.set_slice_whole, Rect.mem_set_unit]
  intro a
  match a with
  | ⟨0, _⟩ => show win0_4.index (pt (i 0) 3) (0 : Fin 3) * 1 ≤ (i 0).val ∧ (i 0).val < win0_4.index (pt (i 0) 3) (0 : Fin 3) * 1 + 1; omega
  | ⟨1, _⟩ => show win0_4.index (pt (i 0) 3) (1 : Fin 3) * 1 ≤ (i 1).val ∧ (i 1).val < win0_4.index (pt (i 0) 3) (1 : Fin 3) * 1 + 1; omega
  | ⟨2, _⟩ => show win0_4.index (pt (i 0) 3) (2 : Fin 3) * 128 ≤ (i 2).val ∧ (i 2).val < win0_4.index (pt (i 0) 3) (2 : Fin 3) * 128 + 128; omega

/-- After the first kernel's run its first result array holds, at image b and lane l, the label's weight sum. -/
theorem sums_final (c : Dev nD) :
    (dat0 V c).arrAt 3 cfg0.N
      = (fun i : S16x1x128.Idx => Cert.Spec.sumsT (V c main_arg0) (V c main_arg1) (V c main_arg2) (i 0) (i 2)) :=
  (dat0 V c).arrAt_eq_of_cover 3 _ (flushed_sums V c) cover_sums

/-- and its second the label's pixel count. -/
theorem cnts_final (c : Dev nD) :
    (dat0 V c).arrAt 4 cfg0.N
      = (fun i : S16x1x128.Idx => Cert.Spec.cntsT (V c main_arg2) (i 0) (i 2)) :=
  (dat0 V c).arrAt_eq_of_cover 4 _ (flushed_cnts V c) cover_cnts

end Cert.KernelIdeal.Value0

end
-- ==== Proof.KPay1.lean ====
/-
  The second kernel's accumulating payload read at a lane, over the extended reals.

  Every lane gets the same number: the carried block's entry plus, over the tile's rows, columns and the three
  channels, the absolute difference times (the pixel's weight times 1.0 plus 1.0), where the pixel's weight is the
  table row's entries times the 1-or-0 of "the pixel's label is that column", added up over the 128 columns.
-/
import proofs.«400574_j67869073211922_4_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

open scoped BigOperators
open Idealize.ShloMosaic Idealize.ShloMosaic.ValueIdx

namespace Cert.KernelIdeal.Pay1

open Cert.KernelIdeal Cert.KernelIdeal.Gen

/-- A sum over the table axis of a [128,512,128] array, read at (r, w). -/
private theorem red_table (v : FVec Ideal S128x512x128 .f32) (h : S128x512x128.Reduces [2] S128x512)
    (hφ : FKind.Formats .f32) (hacc : (0x00000000#32 : BitVec 32) = FKind.add.neutral .f32 hφ) (r : Fin 128) (w : Fin 512) :
    multiReduction .add [2] S128x512 v 0x00000000#32 h hφ hacc (ix2 r w) = ∑ k : Fin 128, v (ix3 r w k) :=
  (Ideal.multiReduction_add_single v _ h hφ hacc (ix2 r w)).trans
    (Finset.sum_congr rfl fun k _ => congrArg v (funext fun a => Fin.ext (by
      match a with
      | ⟨0, _⟩ => rfl
      | ⟨1, _⟩ => rfl
      | ⟨2, _⟩ => rfl)))

/-- A sum over the three channels of a [3,128,512] array, read at (r, w). -/
private theorem red_chan (v : FVec Ideal S3x128x512 .f32) (h : S3x128x512.Reduces [0] S128x512)
    (hφ : FKind.Formats .f32) (hacc : (0x00000000#32 : BitVec 32) = FKind.add.neutral .f32 hφ) (r : Fin 128) (w : Fin 512) :
    multiReduction .add [0] S128x512 v 0x00000000#32 h hφ hacc (ix2 r w) = ∑ ch : Fin 3, v (ix3 ch r w) :=
  (Ideal.multiReduction_add_single v _ h hφ hacc (ix2 r w)).trans
    (Finset.sum_congr rfl fun k _ => congrArg v (funext fun a => Fin.ext (by
      match a with
      | ⟨0, _⟩ => rfl
      | ⟨1, _⟩ => rfl
      | ⟨2, _⟩ => rfl)))

/-- A sum over the 512 columns of a [128,512] array, read at row r. -/
private theorem red_cols (v : FVec Ideal S128x512 .f32) (h : S128x512.Reduces [1] S128)
    (hφ : FKind.Formats .f32) (hacc : (0x00000000#32 : BitVec 32) = FKind.add.neutral .f32 hφ) (r : Fin 128) :
    multiReduction .add [1] S128 v 0x00000000#32 h hφ hacc (ix1 r) = ∑ w : Fin 512, v (ix2 r w) :=
  (Ideal.multiReduction_add_single v _ h hφ hacc (ix1 r)).trans
    (Finset.sum_congr rfl fun k _ => congrArg v (funext fun a => Fin.ext (by
      match a with
      | ⟨0, _⟩ => rfl
      | ⟨1, _⟩ => rfl)))

/-- A sum over the 128 rows of a [128,1] column, read at its one index. -/
private theorem red_rows (v : FVec Ideal S128x1 .f32) (h : S128x1.Reduces [0] S1)
    (hφ : FKind.Formats .f32) (hacc : (0x00000000#32 : BitVec 32) = FKind.add.neutral .f32 hφ) (u : Fin 1) :
    multiReduction .add [0] S1 v 0x00000000#32 h hφ hacc (ix1 u) = ∑ r : Fin 128, v (ix2 r (0 : Fin 1)) :=
  (Ideal.multiReduction_add_single v _ h hφ hacc (ix1 u)).trans
    (Finset.sum_congr rfl fun k _ => congrArg v (funext fun a => Fin.ext (by
      match a with
      | ⟨0, _⟩ => rfl
      | ⟨1, _⟩ => exact (show u.val = 0 by omega))))

section Layout
variable {α : Type}

/-- An [a] array cast to the column [a, 1] reads, at (i, u), the operand at i. -/
private theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b] array cast to [a, b, 1] reads, at (i, j, u), the operand at (i, j). -/
private theorem cast_ab_ab1 {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast along its last axis reads, at (i, j, k), the operand at (i, j, 0). -/
private theorem bcast_ab1_abc {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [1, 1, c] row broadcast to [a, b, c] reads, at (i, j, k), the operand at (0, 0, k). -/
private theorem bcast_11c_abc {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A [1, b, c] plane broadcast to [a, b, c] reads, at (i, j, k), the operand at (0, j, k). -/
private theorem bcast_1bc_abc {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-- The word of a one-bit comparison, widened and read as a number, is 1 or 0. -/
private theorem bit_toInt (b : BitVec 1) : (((b.setWidth 32).toInt : ℝ) : EReal) = if b = 1#1 then 1 else 0 := by
  rcases BitVec.eq_zero_or_eq_one b with rfl | rfl
  · simp
  · simp

/-- A label word equals the column's word exactly when its value is the column. -/
private theorem word_eq_iff (a : BitVec 32) (k : Fin 128) : a = BitVec.ofNat 32 k.val ↔ a.toNat = k.val := by
  constructor
  · rintro rfl
    have := k.isLt
    simp only [BitVec.toNat_ofNat]
    omega
  · intro h
    apply BitVec.eq_of_toNat_eq
    have := k.isLt
    simp only [BitVec.toNat_ofNat]
    omega

/-- The 1-or-0 factor: the comparison of a label word with a column's word, as a number. -/
private theorem indicator (a : BitVec 32) (k : Fin 128) :
    ((((IntOp.cmpi .eq a (BitVec.ofNat 32 k.val)).setWidth 32).toInt : ℝ) : EReal)
      = if a.toNat = k.val then (1 : EReal) else 0 := by
  rw [bit_toInt]
  by_cases h : a.toNat = k.val
  · rw [if_pos h, if_pos (StableHlo.Predicate.cmpi_eq_iff.mpr ((word_eq_iff a k).mpr h))]
  · rw [if_neg h, if_neg (fun e => h ((word_eq_iff a k).mp (StableHlo.Predicate.cmpi_eq_iff.mp e)))]

/-- One product of the table sum: the 1-or-0 factor times the table row's entry. -/
private theorem term_apply (x2 : IVec S1x128x512 32) (x3 : FVec Ideal S1x1x128 .f32)
    (h1 : S1x128x512.ShapeCasts S128x512) (h2 : S128x512.ShapeCasts S128x512x1) (h3 : S128x512x1.Broadcasts S128x512x128)
    (h4 : S128x512x128.Iotas .tc 32 [2]) (h5 : 1 < 32) (h6 : S1x1x128.ShapeCasts S128) (h7 : S128.ShapeCasts S1x1x128)
    (h8 : S1x1x128.Broadcasts S128x512x128) (r : Fin 128) (w : Fin 512) (k : Fin 128) :
    mulf (sitofp .f32 (extui 32 (cmpi .eq (broadcastTo S128x512x128 (shapeCast S128x512x1 (shapeCast S128x512 x2 h1) h2) h3)
        (iota .tc S128x512x128 32 [2] h4)) h5) : FVec Ideal S128x512x128 .f32)
      (broadcastTo S128x512x128 (shapeCast S1x1x128 (shapeCast S128 x3 h6) h7) h8) (ix3 r w k)
      = (if (x2 (ix3 0 r w)).toNat = k.val then (1 : EReal) else 0) * x3 (ix3 0 0 k) := by
  have e1 : broadcastTo S128x512x128 (shapeCast S128x512x1 (shapeCast S128x512 x2 h1) h2) h3 (ix3 r w k) = x2 (ix3 0 r w) := by
    rw [bcast_ab1_abc, cast_ab_ab1, shapeCast_1ab_ab_apply]
  have e2 : iota .tc S128x512x128 32 [2] h4 (ix3 r w k) = BitVec.ofNat 32 k.val :=
    iota_single_apply .tc S128x512x128 32 2 h4 (ix3 r w k)
  have e3 : broadcastTo S128x512x128 (shapeCast S1x1x128 (shapeCast S128 x3 h6) h7) h8 (ix3 r w k) = x3 (ix3 0 0 k) := by
    rw [shapeCast_shapeCast, bcast_11c_abc]
  show ((((IntOp.cmpi .eq (broadcastTo S128x512x128 (shapeCast S128x512x1 (shapeCast S128x512 x2 h1) h2) h3 (ix3 r w k))
      (iota .tc S128x512x128 32 [2] h4 (ix3 r w k))).setWidth 32).toInt : ℝ) : EReal)
      * broadcastTo S128x512x128 (shapeCast S1x1x128 (shapeCast S128 x3 h6) h7) h8 (ix3 r w k) = _
  rw [e1, e2, e3, indicator]

/-- The pixel's weight: the table sum over the 128 columns at (r, w). -/
private theorem weight_apply (x2 : IVec S1x128x512 32) (x3 : FVec Ideal S1x1x128 .f32)
    (h1 : S1x128x512.ShapeCasts S128x512) (h2 : S128x512.ShapeCasts S128x512x1) (h3 : S128x512x1.Broadcasts S128x512x128)
    (h4 : S128x512x128.Iotas .tc 32 [2]) (h5 : 1 < 32) (h6 : S1x1x128.ShapeCasts S128) (h7 : S128.ShapeCasts S1x1x128)
    (h8 : S1x1x128.Broadcasts S128x512x128) (h9 : S128x512x128.Reduces [2] S128x512)
    (hφ : FKind.Formats .f32) (hacc : (0x00000000#32 : BitVec 32) = FKind.add.neutral .f32 hφ) (r : Fin 128) (w : Fin 512) :
    multiReduction .add [2] S128x512
        (mulf (sitofp .f32 (extui 32 (cmpi .eq (broadcastTo S128x512x128 (shapeCast S128x512x1 (shapeCast S128x512 x2 h1) h2) h3)
          (iota .tc S128x512x128 32 [2] h4)) h5) : FVec Ideal S128x512x128 .f32)
          (broadcastTo S128x512x128 (shapeCast S1x1x128 (shapeCast S128 x3 h6) h7) h8))
        0x00000000#32 h9 hφ hacc (ix2 r w)
      = ∑ k : Fin 128, (if (x2 (ix3 0 r w)).toNat = k.val then (1 : EReal) else 0) * x3 (ix3 0 0 k) :=
  (red_table _ h9 hφ hacc r w).trans (Finset.sum_congr rfl fun k _ => term_apply x2 x3 h1 h2 h3 h4 h5 h6 h7 h8 r w k)

/-- The weight plane scaled and shifted by two constants, read at (0, r, w). -/
private theorem scale_apply (v : FVec Ideal S128x512 .f32) (h : S128x512.ShapeCasts S1x128x512) (c c' : Ideal .f32)
    (r : Fin 128) (w : Fin 512) :
    addf (mulf (shapeCast S1x128x512 v h) (broadcast S1x128x512 c)) (broadcast S1x128x512 c') (ix3 (0 : Fin 1) r w)
      = v (ix2 r w) * c + c' := by
  show shapeCast S1x128x512 v h (ix3 (0 : Fin 1) r w) * c + c' = _
  rw [shapeCast_ab_1ab_apply]

/-- The absolute difference of the two images times the plane's entry, read at (ch, r, w). -/
private theorem prod_apply (x0 x1 : FVec Ideal S1x3x128x512 .f32) (p : FVec Ideal S1x128x512 .f32)
    (h : S1x3x128x512.ShapeCasts S3x128x512) (hb : S1x128x512.Broadcasts S3x128x512) (ch : Fin 3) (r : Fin 128) (w : Fin 512) :
    mulf (absf (subf (shapeCast S3x128x512 x0 h) (shapeCast S3x128x512 x1 h))) (broadcastTo S3x128x512 p hb) (ix3 ch r w)
      = max (x0 (ix4 0 ch r w) - x1 (ix4 0 ch r w)) (-(x0 (ix4 0 ch r w) - x1 (ix4 0 ch r w))) * p (ix3 0 r w) := by
  show max (shapeCast S3x128x512 x0 h (ix3 ch r w) - shapeCast S3x128x512 x1 h (ix3 ch r w))
        (-(shapeCast S3x128x512 x0 h (ix3 ch r w) - shapeCast S3x128x512 x1 h (ix3 ch r w)))
      * broadcastTo S3x128x512 p hb (ix3 ch r w) = _
  rw [shapeCast_1abc_abc_apply, shapeCast_1abc_abc_apply, bcast_1bc_abc]

/-- The four nested sums: over the channels, the columns, then (through a column cast) the rows. -/
private theorem total_apply (v : FVec Ideal S3x128x512 .f32) (g1 : S3x128x512.Reduces [0] S128x512)
    (g2 : S128x512.Reduces [1] S128) (g3 : S128.ShapeCasts S128x1) (g4 : S128x1.Reduces [0] S1) (g5 : S1.ShapeCasts S1x1)
    (hφ : FKind.Formats .f32) (hacc : (0x00000000#32 : BitVec 32) = FKind.add.neutral .f32 hφ) (u u' : Fin 1) :
    shapeCast S1x1 (multiReduction .add [0] S1 (shapeCast S128x1 (multiReduction .add [1] S128
        (multiReduction .add [0] S128x512 v 0x00000000#32 g1 hφ hacc) 0x00000000#32 g2 hφ hacc) g3) 0x00000000#32 g4 hφ hacc) g5 (ix2 u u')
      = ∑ r : Fin 128, ∑ w : Fin 512, ∑ ch : Fin 3, v (ix3 ch r w) :=
  (shapeCast_a_1a_apply _ g5 u u').trans ((red_rows _ g4 hφ hacc u').trans (Finset.sum_congr rfl fun r _ =>
    (cast_a_a1 _ g3 r 0).trans ((red_cols _ g2 hφ hacc r).trans (Finset.sum_congr rfl fun w _ => red_chan _ g1 hφ hacc r w))))

/-- The last step: the carried block's entry plus the one total, at every lane. -/
private theorem pay1_apply (t : FVec Ideal S1x1 .f32) (acc : Vec Ideal S1x1x128 .f32) (l : Fin 128) :
    k1_pay1 (F := Ideal) t acc (ix3 0 0 l) = acc (ix3 0 0 l) + t (ix2 0 0) := by
  unfold k1_pay1
  show shapeCast S1x1x128 acc shapeCasts_S1x1x128_S1x1x128 (ix3 0 0 l)
      + broadcastTo S1x1x128 (shapeCast S1x1x1 t shapeCasts_S1x1_S1x1x1) broadcasts_S1x1x1_S1x1x128 (ix3 0 0 l) = _
  rw [shapeCast_self, bcast_ab1_abc, shapeCast_ab_1ab_apply]

/-- The zero block the body stores at a row tile 0. -/
theorem zero_total (j : S1x1x128.Idx) : k1_pay2 (F := Ideal) j = 0 := by
  show Ideal.ofBits .f32 0x00000000#32 = 0
  exact Ideal.ofBits_zero_f32

/-- The output payload at lane l. -/
theorem total_tile_apply (x0 x1 : Vec Ideal S1x3x128x512 .f32) (x2 : Vec Ideal S1x128x512 .i32)
    (x3 acc : Vec Ideal S1x1x128 .f32) (l : Fin 128) :
    k1_pay1 (F := Ideal) (k1_pay3 x0 x1 x2 x3) acc (ix3 0 0 l)
      = acc (ix3 0 0 l) + ∑ r : Fin 128, ∑ w : Fin 512, ∑ ch : Fin 3,
          max (x0 (ix4 0 ch r w) - x1 (ix4 0 ch r w)) (-(x0 (ix4 0 ch r w) - x1 (ix4 0 ch r w)))
            * ((∑ k : Fin 128, (if (x2 (ix3 0 r w)).toNat = k.val then (1 : EReal) else 0) * x3 (ix3 0 0 k))
                * Ideal.ofBits .f32 0x3F800000#32 + Ideal.ofBits .f32 0x3F800000#32) := by
  refine (pay1_apply _ acc l).trans (congrArg (acc (ix3 0 0 l) + ·) ?_)
  unfold k1_pay3
  refine (total_apply _ _ _ _ _ _ _ _ 0 0).trans ?_
  refine Finset.sum_congr rfl fun r _ => Finset.sum_congr rfl fun w _ => Finset.sum_congr rfl fun ch _ => ?_
  refine (prod_apply x0 x1 _ _ _ ch r w).trans (congrArg
    (max (x0 (ix4 0 ch r w) - x1 (ix4 0 ch r w)) (-(x0 (ix4 0 ch r w) - x1 (ix4 0 ch r w))) * ·) ?_)
  refine (scale_apply _ _ _ _ r w).trans ?_
  exact congrArg (· * Ideal.ofBits .f32 0x3F800000#32 + Ideal.ofBits .f32 0x3F800000#32)
    (weight_apply x2 x3 _ _ _ _ _ _ _ _ _ _ _ r w)

end Cert.KernelIdeal.Pay1

end
-- ==== Proof.K1Value.lean ====
/-
  The second kernel's result array after its run: per image, the total of the scaled absolute differences, the
  same number on every lane.

  Image b's block is written back once, after the image's fourth row tile, holding the zero block plus the four
  tiles' totals in tile order; within a tile a pixel's weight is the table row's entry at the pixel's label (the
  one-hot row against the table row), which needs the label to be a table column.
-/
import proofs.«400574_j67869073211922_4_alg».proof.Proof.Gen.KernelIdeal.Frame
import proofs.«400574_j67869073211922_4_alg».proof.Proof.KPieces
import proofs.«400574_j67869073211922_4_alg».proof.Proof.KPay1
import proofs.«400574_j67869073211922_4_alg».proof.Proof.SpecLaws
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Value1

open Cert.KernelIdeal Cert.KernelIdeal.Gen

variable (V : (c : Dev nD) → (b : Ref sig .tc) → Buf (Elt Ideal) ((c : Thread nD τ).loc b))

/-- Which block each window is on at a point of the 16 × 4 grid: image t / 4 on the image axis, row tile t % 4 on the
    row axis of the windows that walk the rows, block 0 on every other axis. -/
private theorem point_blocks : ∀ t : Fin cfg1.N,
    win1_0.index t (0 : Fin 4) = t.val / 4 ∧ win1_0.index t (1 : Fin 4) = 0 ∧ win1_0.index t (2 : Fin 4) = t.val % 4 ∧ win1_0.index t (3 : Fin 4) = 0
    ∧ win1_1.index t (0 : Fin 4) = t.val / 4 ∧ win1_1.index t (1 : Fin 4) = 0 ∧ win1_1.index t (2 : Fin 4) = t.val % 4 ∧ win1_1.index t (3 : Fin 4) = 0
    ∧ win1_2.index t (0 : Fin 3) = t.val / 4 ∧ win1_2.index t (1 : Fin 3) = t.val % 4 ∧ win1_2.index t (2 : Fin 3) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = 0 ∧ win1_4.index t (2 : Fin 3) = 0 :=
  (by decide +kernel : ∀ t : Fin grid1.N, _)

/-- The blocks the second kernel loads at a point, and the arrays they are cut from. -/
private abbrev xblk (c : Dev nD) (t : Fin cfg1.N) : Vec Ideal S1x3x128x512 .f32 := iblk1 V c 0 t
private abbrev yblk (c : Dev nD) (t : Fin cfg1.N) : Vec Ideal S1x3x128x512 .f32 := iblk1 V c 1 t
private abbrev mblk (c : Dev nD) (t : Fin cfg1.N) : Vec Ideal S1x128x512 .i32 := iblk1 V c 2 t
private abbrev tblk (c : Dev nD) (t : Fin cfg1.N) : Vec Ideal S1x1x128 .f32 := iblk1 V c 3 t
private abbrev xarr (c : Dev nD) : Cert.Spec.SX.Idx → EReal := V c main_arg0
private abbrev yarr (c : Dev nD) : Cert.Spec.SX.Idx → EReal := V c main_arg1
private abbrev marr (c : Dev nD) : Cert.Spec.SM.Idx → BitVec 32 := V c main_arg2
private abbrev tarr (c : Dev nD) : Cert.Spec.ST.Idx → EReal := V c main_v9

/-- The first image's block at a point of image b and row tile j: entry (ch, r, w) is the array's (b, ch, 128·j + r, w)
    (a block's coordinate is its block index times the block's extent plus the coordinate inside). -/
private theorem xblk_apply (c : Dev nD) (t : Fin cfg1.N) (b : Fin 16) (j : Fin 4) (hb : t.val / 4 = b.val) (hj : t.val % 4 = j.val)
    (ch : Fin 3) (r : Fin 128) (w : Fin 512) :
    xblk V c t (ix4 0 ch r w) = xarr V c (ix4 b ch (Cert.Spec.row j r) w) := by
  obtain ⟨e0, e1, e2, e3, -⟩ := point_blocks t
  show V c main_arg0 (((cfg1.win 0).blk t).view.emb (ix4 0 ch r w)) = V c main_arg0 (ix4 b ch (Cert.Spec.row j r) w)
  refine congrArg (V c main_arg0) (funext fun a => Fin.ext ?_)
  match a with
  | ⟨0, _⟩ => show win1_0.index t (0 : Fin 4) * 1 + 1 * 0 = b.val; omega
  | ⟨1, _⟩ => show win1_0.index t (1 : Fin 4) * 3 + 1 * ch.val = ch.val; omega
  | ⟨2, _⟩ => show win1_0.index t (2 : Fin 4) * 128 + 1 * r.val = 128 * j.val + r.val; omega
  | ⟨3, _⟩ => show win1_0.index t (3 : Fin 4) * 512 + 1 * w.val = w.val; omega

/-- The second image's block likewise. -/
private theorem yblk_apply (c : Dev nD) (t : Fin cfg1.N) (b : Fin 16) (j : Fin 4) (hb : t.val / 4 = b.val) (hj : t.val % 4 = j.val)
    (ch : Fin 3) (r : Fin 128) (w : Fin 512) :
    yblk V c t (ix4 0 ch r w) = yarr V c (ix4 b ch (Cert.Spec.row j r) w) := by
  obtain ⟨-, -, -, -, e0, e1, e2, e3, -⟩ := point_blocks t
  show V c main_arg1 (((cfg1.win 1).blk t).view.emb (ix4 0 ch r w)) = V c main_arg1 (ix4 b ch (Cert.Spec.row j r) w)
  refine congrArg (V c main_arg1) (funext fun a => Fin.ext ?_)
  match a with
  | ⟨0, _⟩ => show win1_1.index t (0 : Fin 4) * 1 + 1 * 0 = b.val; omega
  | ⟨1, _⟩ => show win1_1.index t (1 : Fin 4) * 3 + 1 * ch.val = ch.val; omega
  | ⟨2, _⟩ => show win1_1.index t (2 : Fin 4) * 128 + 1 * r.val = 128 * j.val + r.val; omega
  | ⟨3, _⟩ => show win1_1.index t (3 : Fin 4) * 512 + 1 * w.val = w.val; omega

/-- The label block at a point is its image's row tile of the label array. -/
private theorem mblk_apply (c : Dev nD) (t : Fin cfg1.N) (b : Fin 16) (j : Fin 4) (hb : t.val / 4 = b.val) (hj : t.val % 4 = j.val)
    (r : Fin 128) (w : Fin 512) :
    mblk V c t (ix3 0 r w) = marr V c (ix3 b (Cert.Spec.row j r) w) := by
  obtain ⟨-, -, -, -, -, -, -, -, e0, e1, e2, -⟩ := point_blocks t
  show V c main_arg2 (((cfg1.win 2).blk t).view.emb (ix3 0 r w)) = V c main_arg2 (ix3 b (Cert.Spec.row j r) w)
  refine congrArg (V c main_arg2) (funext fun a => Fin.ext ?_)
  match a with
  | ⟨0, _⟩ => show win1_2.index t (0 : Fin 3) * 1 + 1 * 0 = b.val; omega
  | ⟨1, _⟩ => show win1_2.index t (1 : Fin 3) * 128 + 1 * r.val = 128 * j.val + r.val; omega
  | ⟨2, _⟩ => show win1_2.index t (2 : Fin 3) * 512 + 1 * w.val = w.val; omega

/-- The table block at a point is its image's row of the table. -/
private theorem tblk_apply (c : Dev nD) (t : Fin cfg1.N) (b : Fin 16) (hb : t.val / 4 = b.val) (k : Fin 128) :
    tblk V c t (ix3 0 0 k) = tarr V c (ix3 b 0 k) := by
  obtain ⟨-, -, -, -, -, -, -, -, -, -, -, e0, e1, e2, -⟩ := point_blocks t
  show V c main_v9 (((cfg1.win 3).blk t).view.emb (ix3 0 0 k)) = V c main_v9 (ix3 b 0 k)
  refine congrArg (V c main_v9) (funext fun a => Fin.ext ?_)
  match a with
  | ⟨0, _⟩ => show win1_3.index t (0 : Fin 3) * 1 + 1 * 0 = b.val; omega
  | ⟨1, _⟩ => show win1_3.index t (1 : Fin 3) * 1 + 1 * 0 = 0; omega
  | ⟨2, _⟩ => show win1_3.index t (2 : Fin 3) * 128 + 1 * k.val = k.val; omega

/-- One row tile's share of an image's scaled total. -/
private def tileTot (X Y : Cert.Spec.SX.Idx → EReal) (M : Cert.Spec.SM.Idx → BitVec 32) (N : Cert.Spec.ST.Idx → EReal)
    (b : Fin 16) (j : Fin 4) : EReal :=
  ∑ r : Fin 128, ∑ w : Fin 512, ∑ ch : Fin 3,
    Cert.Spec.dabs X Y b ch (Cert.Spec.row j r) w
      * (N (ix3 b 0 (Cert.Spec.lab M b (Cert.Spec.row j r) w)) * Cert.Spec.one32 + Cert.Spec.one32)

/-- The accumulating payload at a lane, for blocks that are image b's row tile j of the arrays: the carried entry plus
    the tile's share, the one-hot row against the table row picking the entry at the pixel's label. -/
private theorem tile_lane (x0 x1 : Vec Ideal S1x3x128x512 .f32) (x2 : Vec Ideal S1x128x512 .i32) (x3 acc : Vec Ideal S1x1x128 .f32)
    (X Y : Cert.Spec.SX.Idx → EReal) (M : Cert.Spec.SM.Idx → BitVec 32) (N : Cert.Spec.ST.Idx → EReal)
    (b : Fin 16) (j : Fin 4)
    (h0 : ∀ ch r w, x0 (ix4 0 ch r w) = X (ix4 b ch (Cert.Spec.row j r) w))
    (h1 : ∀ ch r w, x1 (ix4 0 ch r w) = Y (ix4 b ch (Cert.Spec.row j r) w))
    (h2 : ∀ r w, x2 (ix3 0 r w) = M (ix3 b (Cert.Spec.row j r) w))
    (h3 : ∀ k, x3 (ix3 0 0 k) = N (ix3 b 0 k))
    (hM : ∀ i, (M i).toNat < 128) (l : Fin 128) :
    k1_pay1 (F := Ideal) (k1_pay3 x0 x1 x2 x3) acc (ix3 0 0 l) = acc (ix3 0 0 l) + tileTot X Y M N b j := by
  rw [Pay1.total_tile_apply x0 x1 x2 x3 acc l]
  unfold tileTot
  refine congrArg (acc (ix3 0 0 l) + ·) ?_
  refine Finset.sum_congr rfl fun r _ => Finset.sum_congr rfl fun w _ => Finset.sum_congr rfl fun ch _ => ?_
  rw [h0, h1, h2]
  simp only [h3]
  rw [Cert.Spec.hot_pick M b (Cert.Spec.row j r) w (hM _) (fun k => N (ix3 b 0 k))]
  rfl

/-- At an image's first row tile the result block holds, at every lane, that tile's share over the zero block. -/
private theorem lane_first (c : Dev nD) (n : ℕ) (hn : n < cfg1.N) (b : Fin 16) (hb : n / 4 = b.val) (h0 : n % 4 = 0)
    (hM : ∀ i, (marr V c i).toNat < 128) (l : Fin 128) :
    outsAt1 V c n hn (ix3 0 0 l) = tileTot (xarr V c) (yarr V c) (marr V c) (tarr V c) b 0 := by
  refine (congrFun ((outsAt1_A V c ⟨n, hn⟩ h0).trans
    (Pieces.total_first (F := Ideal) c (grid1.coords ⟨n, hn⟩) (ms1_0 ⟨n, hn⟩) (hs1_0 ⟨n, hn⟩) (ms1_1 ⟨n, hn⟩) (hs1_1 ⟨n, hn⟩)
      (ms1_2 ⟨n, hn⟩) (hs1_2 ⟨n, hn⟩) (ms1_3 ⟨n, hn⟩) (hs1_3 ⟨n, hn⟩) (ms1_4 ⟨n, hn⟩) (hs1_4 ⟨n, hn⟩)
      ((hcond1_0 ⟨n, hn⟩).mpr h0) (xblk V c ⟨n, hn⟩) (yblk V c ⟨n, hn⟩) (mblk V c ⟨n, hn⟩) (tblk V c ⟨n, hn⟩))) (ix3 0 0 l)).trans ?_
  refine (tile_lane (xblk V c ⟨n, hn⟩) (yblk V c ⟨n, hn⟩) (mblk V c ⟨n, hn⟩) (tblk V c ⟨n, hn⟩) (k1_pay2 (F := Ideal))
    (xarr V c) (yarr V c) (marr V c) (tarr V c) b 0
    (xblk_apply V c ⟨n, hn⟩ b 0 hb h0) (yblk_apply V c ⟨n, hn⟩ b 0 hb h0) (mblk_apply V c ⟨n, hn⟩ b 0 hb h0)
    (tblk_apply V c ⟨n, hn⟩ b hb) hM l).trans ?_
  rw [Pay1.zero_total, zero_add]

/-- At a later row tile j it holds what the point before left plus tile j's share. -/
private theorem lane_next (c : Dev nD) (n : ℕ) (hn : n + 1 < cfg1.N) (hp : n < cfg1.N) (b : Fin 16) (j : Fin 4)
    (hb : (n + 1) / 4 = b.val) (hj : (n + 1) % 4 = j.val) (hj0 : ¬(n + 1) % 4 = 0)
    (hM : ∀ i, (marr V c i).toNat < 128) (l : Fin 128) :
    outsAt1 V c (n + 1) hn (ix3 0 0 l)
      = outsAt1 V c n hp (ix3 0 0 l) + tileTot (xarr V c) (yarr V c) (marr V c) (tarr V c) b j := by
  refine (congrFun ((outsAt1_B V c ⟨n + 1, hn⟩ hj0).trans
    (Pieces.total_next (F := Ideal) c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
      (fun h => hj0 ((hcond1_0 ⟨n + 1, hn⟩).mp h)) (xblk V c ⟨n + 1, hn⟩) (yblk V c ⟨n + 1, hn⟩) (mblk V c ⟨n + 1, hn⟩) (tblk V c ⟨n + 1, hn⟩)
      (outsAt1 V c n hp))) (ix3 0 0 l)).trans ?_
  exact tile_lane (xblk V c ⟨n + 1, hn⟩) (yblk V c ⟨n + 1, hn⟩) (mblk V c ⟨n + 1, hn⟩) (tblk V c ⟨n + 1, hn⟩) (outsAt1 V c n hp)
    (xarr V c) (yarr V c) (marr V c) (tarr V c) b j
    (xblk_apply V c ⟨n + 1, hn⟩ b j hb hj) (yblk_apply V c ⟨n + 1, hn⟩ b j hb hj) (mblk_apply V c ⟨n + 1, hn⟩ b j hb hj)
    (tblk_apply V c ⟨n + 1, hn⟩ b hb) hM l

/-- At an image's fourth row tile the result block holds, at every lane, the image's whole scaled total: the zero
    block plus the four tiles' shares in tile order, which is the sum over the image's 512 rows. -/
private theorem lane_whole (c : Dev nD) (n : ℕ) (hn : n < cfg1.N) (b : Fin 16) (hb : n / 4 = b.val) (h3 : n % 4 = 3)
    (hM : ∀ i, (marr V c i).toNat < 128) (l : Fin 128) :
    outsAt1 V c n hn (ix3 0 0 l) = Cert.Spec.outG (xarr V c) (yarr V c) (marr V c) (tarr V c) b := by
  obtain ⟨k, rfl⟩ : ∃ k, n = k + 3 := ⟨n - 3, by omega⟩
  have hN : cfg1.N = 64 := N_1
  have p2 : k + 2 < cfg1.N := by omega
  have p1 : k + 1 < cfg1.N := by omega
  have p0 : k < cfg1.N := by omega
  rw [lane_next V c (k + 2) hn p2 b 3 (by omega) (by omega) (by omega) hM l,
    lane_next V c (k + 1) p2 p1 b 2 (by omega) (by omega) (by omega) hM l,
    lane_next V c k p1 p0 b 1 (by omega) (by omega) (by omega) hM l,
    lane_first V c k p0 b (by omega) (by omega) hM l]
  unfold Cert.Spec.outG
  rw [Cert.Spec.sum_rows]
  rfl

/-- What the result array ends holding: at image b, every lane, the image's scaled total. -/
private abbrev totals (c : Dev nD) : S16x1x128.Idx → EReal :=
  fun i => Cert.Spec.outG (xarr V c) (yarr V c) (marr V c) (tarr V c) (i 0)

/-- An index of the one-row block is its lane. -/
private theorem lane_idx (j : S1x1x128.Idx) : j = ix3 0 0 (j 2) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

/-- Two one-row blocks that agree lane by lane are equal. -/
private theorem lanes_ext (f g : S1x1x128.Idx → EReal) (h : ∀ l : Fin 128, f (ix3 0 0 l) = g (ix3 0 0 l)) : f = g := by
  funext j
  rw [lane_idx j]
  exact h _

/-- What a write-back writes is its image's row of the totals: the write-backs are at the fourth row tiles, where the
    block holds the image's whole total at every lane, and the block of point t is row t / 4 of the array. -/
private theorem written_row (c : Dev nD) (hM : ∀ i, (marr V c i).toNat < 128) (t : Fin cfg1.N) (hf : (cfg1.win 4).flush t = true) :
    (dat1 V c).flushed 4 t = ((cfg1.win 4).blk t).view.read (Elt Ideal) (totals V c) := by
  have h3 : t.val % 4 = 3 := (flush1_4 t).mp hf
  have hN : cfg1.N = 64 := N_1
  have ht : t.val < 64 := lt_of_lt_of_eq t.isLt hN
  obtain ⟨-, -, -, -, -, -, -, -, -, -, -, -, -, -, e0, e1, e2⟩ := point_blocks t
  show (cfg1.win 4).cut (grid1.coords t) ((dat1 V c).after 4 t) = _
  rw [after1_4]
  refine lanes_ext _ _ fun l => ?_
  show outsAt1 V c t.val t.isLt (ix3 0 0 l)
    = Cert.Spec.outG (xarr V c) (yarr V c) (marr V c) (tarr V c) ((((cfg1.win 4).blk t).view.emb (ix3 0 0 l)) 0)
  rw [lane_whole V c t.val t.isLt ⟨t.val / 4, by omega⟩ rfl h3 hM l]
  refine congrArg (Cert.Spec.outG (xarr V c) (yarr V c) (marr V c) (tarr V c)) (Fin.ext ?_)
  show t.val / 4 = win1_4.index t (0 : Fin 3) * 1 + 1 * 0
  omega

/-- An index of the result array is in point t's block iff each coordinate is in the block's range on its axis. -/
private theorem mem_row_block (t : Fin cfg1.N) (i : S16x1x128.Idx) :
    i ∈ ((cfg1.win 4).blk t).view.set
      ↔ ∀ a : Fin 3, win1_4.index t a * S1x1x128.size a ≤ (i a).val
          ∧ (i a).val < win1_4.index t a * S1x1x128.size a + S1x1x128.size a := by
  show i ∈ ((View.whole main_v10).slice (win1_4.rect t)).set ↔ _
  rw [View.set_slice_whole, Rect.mem_set_unit]
  exact Iff.rfl

/-- Every row of the result array is written back: image b's at its fourth row tile, the point 4b + 3. -/
private theorem rows_covered (i : S16x1x128.Idx) :
    ∃ t : Fin cfg1.N, (cfg1.win 4).flush t = true ∧ i ∈ ((cfg1.win 4).blk t).view.set := by
  have hN : cfg1.N = 64 := N_1
  have h0 : (i 0).val < 16 := (i 0).isLt
  have h1 : (i 1).val < 1 := (i 1).isLt
  have h2 : (i 2).val < 128 := (i 2).isLt
  have hlt : 4 * (i 0).val + 3 < cfg1.N := by omega
  refine ⟨⟨4 * (i 0).val + 3, hlt⟩, (flush1_4 _).mpr (by dsimp only; omega), ?_⟩
  obtain ⟨-, -, -, -, -, -, -, -, -, -, -, -, -, -, e0, e1, e2⟩ := point_blocks ⟨4 * (i 0).val + 3, hlt⟩
  dsimp only at e0 e1 e2
  rw [mem_row_block]
  intro a
  match a with
  | ⟨0, _⟩ =>
    show win1_4.index ⟨4 * (i 0).val + 3, hlt⟩ (0 : Fin 3) * 1 ≤ (i 0).val
      ∧ (i 0).val < win1_4.index ⟨4 * (i 0).val + 3, hlt⟩ (0 : Fin 3) * 1 + 1
    omega
  | ⟨1, _⟩ =>
    show win1_4.index ⟨4 * (i 0).val + 3, hlt⟩ (1 : Fin 3) * 1 ≤ (i 1).val
      ∧ (i 1).val < win1_4.index ⟨4 * (i 0).val + 3, hlt⟩ (1 : Fin 3) * 1 + 1
    omega
  | ⟨2, _⟩ =>
    show win1_4.index ⟨4 * (i 0).val + 3, hlt⟩ (2 : Fin 3) * 128 ≤ (i 2).val
      ∧ (i 2).val < win1_4.index ⟨4 * (i 0).val + 3, hlt⟩ (2 : Fin 3) * 128 + 128
    omega

/-- After the second kernel's run its result array holds, at image b and every lane, the image's scaled total
    against the table it was handed. -/
theorem total_final (c : Dev nD) (hM : ∀ i, ((V c main_arg2 : Cert.Spec.SM.Idx → BitVec 32) i).toNat < 128) :
    (dat1 V c).arrAt 4 cfg1.N
      = (fun i : S16x1x128.Idx =>
          Cert.Spec.outG (V c main_arg0) (V c main_arg1) (V c main_arg2) (V c main_v9) (i 0)) := by
  exact (dat1 V c).arrAt_eq_of_cover 4 (totals V c) (fun t hf => written_row V c hM t hf) rows_covered

end Cert.KernelIdeal.Value1

end
-- ==== Proof.KHost.lean ====
/-
  The kernel program's host operations around its two kernels, read over the two kernels' result arrays: between
  them the averages (sums over three times the counts, floored at 1.0), their greatest, the division by it and the
  clip to [0, 1], which is the table the second kernel is handed; after them lane 0 of every image's total added up and
  divided by the number of entries. The arguments reach the second kernel as launched.
-/
import proofs.«400574_j67869073211922_4_alg».proof.Proof.Gen.KernelIdeal.Frame
import proofs.«400574_j67869073211922_4_alg».proof.Proof.K0Value
import proofs.«400574_j67869073211922_4_alg».proof.Proof.K1Value
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HostValue

open Cert.KernelIdeal Cert.KernelIdeal.Gen

variable (m : (ℓ : Loc nD τ sig) → Buf (Elt Ideal) ℓ) (ρ : Dev nD → PrngReg)

/-- The arguments reach the second kernel as launched. -/
theorem V3_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem V3_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem V3_arg2 (c : Dev nD) : V3 m ρ c main_arg2 = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-- A reduction of the whole table to the one-element shape with the greater of two as its step: the fold of max over
    every index, from the initial word. -/
private theorem greatest_eq (a : S16x1x128.Idx → EReal) (h : S16x1x128.ReducesTo [0, 1, 2] S_) (hu : 0 < S_.numel)
    (j : S_.Idx) :
    Host.reduce (FloatOps.maximumf (F := Ideal) (φ := .f32)) a (constant (F := Ideal) S_ .f32 0xFF800000#32) h hu j
      = (Finset.univ : Finset S16x1x128.Idx).fold max (Ideal.ofBits .f32 0xFF800000#32) a := by
  rw [Host.reduce_eq_fold]
  rw [Finset.filter_true_of_mem fun i _ => funext fun b => b.elim0]
  rfl

/-- The host operations between the two kernels, over any two tables of sums and counts, read at an index. -/
private theorem table_read (S C : S16x1x128.Idx → EReal) (hb : S_.BroadcastsInDim S16x1x128 (![] : Fin 0 → Fin S16x1x128.rank))
    (h : S16x1x128.ReducesTo [0, 1, 2] S_) (hu : 0 < S_.numel) (i : S16x1x128.Idx) :
    (minimumf (F := Ideal) (broadcastInDim S16x1x128 ![] hb (constant (F := Ideal) S_ .f32 0x3F800000#32))
      (maximumf (broadcastInDim S16x1x128 ![] hb (constant (F := Ideal) S_ .f32 0x00000000#32))
        (Host.divf
          (Host.divf S (maximumf (mulf C (broadcastInDim S16x1x128 ![] hb (constant (F := Ideal) S_ .f32 0x40400000#32)))
            (broadcastInDim S16x1x128 ![] hb (constant (F := Ideal) S_ .f32 0x3F800000#32))))
          (broadcastInDim S16x1x128 ![] hb
            (Host.reduce (FloatOps.maximumf (F := Ideal) (φ := .f32))
              (Host.divf S (maximumf (mulf C (broadcastInDim S16x1x128 ![] hb (constant (F := Ideal) S_ .f32 0x40400000#32)))
                (broadcastInDim S16x1x128 ![] hb (constant (F := Ideal) S_ .f32 0x3F800000#32))))
              (constant (F := Ideal) S_ .f32 0xFF800000#32) h hu))))) i
      = min (Ideal.ofBits .f32 0x3F800000#32) (max (Ideal.ofBits .f32 0x00000000#32)
          (Ideal.div (Ideal.div (S i) (max (C i * Ideal.ofBits .f32 0x40400000#32) (Ideal.ofBits .f32 0x3F800000#32)))
            ((Finset.univ : Finset S16x1x128.Idx).fold max (Ideal.ofBits .f32 0xFF800000#32)
              fun k => Ideal.div (S k) (max (C k * Ideal.ofBits .f32 0x40400000#32) (Ideal.ofBits .f32 0x3F800000#32))))) := by
  rw [minimumf_apply, maximumf_apply, hostDivf_apply, broadcastInDim_scalar_apply, broadcastInDim_scalar_apply,
    broadcastInDim_scalar_apply, greatest_eq]
  rfl

/-- The table the second kernel is handed is the normalized averages. -/
theorem V3_table (c : Dev nD) :
    V3 m ρ c main_v9 = Cert.Spec.normTab (m ((c : Thread nD τ).loc main_arg0)) (m ((c : Thread nD τ).loc main_arg1))
      (m ((c : Thread nD τ).loc main_arg2)) := by
  have hS : (W1 m ρ c (Proc.devRef .tc main_v0_0) : S16x1x128.Idx → EReal)
      = fun i => Cert.Spec.sumsT (m ((c : Thread nD τ).loc main_arg0)) (m ((c : Thread nD τ).loc main_arg1))
          (m ((c : Thread nD τ).loc main_arg2)) (i 0) (i 2) :=
    (W1_arr m ρ c 3).trans (Value0.sums_final (V0 m ρ) c)
  have hC : (W1 m ρ c (Proc.devRef .tc main_v0_1) : S16x1x128.Idx → EReal)
      = fun i => Cert.Spec.cntsT (m ((c : Thread nD τ).loc main_arg2)) (i 0) (i 2) :=
    (W1_arr m ρ c 4).trans (Value0.cnts_final (V0 m ρ) c)
  show StableHlo.after hostOps1_1 (StableHlo.after hostOps1 (W1 m ρ c)) (Proc.devRef .tc main_v9) = _
  after_results
  rw [hS, hC]
  funext i
  exact table_read
    (fun i => Cert.Spec.sumsT (m ((c : Thread nD τ).loc main_arg0)) (m ((c : Thread nD τ).loc main_arg1))
      (m ((c : Thread nD τ).loc main_arg2)) (i 0) (i 2))
    (fun i => Cert.Spec.cntsT (m ((c : Thread nD τ).loc main_arg2)) (i 0) (i 2))
    bcast_S_S16x1x128 reducesTo_S16x1x128_S_d0_1_2 h_S_ i

/-- A sum over the indices of a 16-entry vector is the sum over its 16 coordinates. -/
private theorem sum_idx16 (f : S16.Idx → EReal) : ∑ i : S16.Idx, f i = ∑ b : Fin 16, f (ix1 b) :=
  Fintype.sum_equiv ⟨fun i => i 0, ix1, fun i => (eq_ix1 i).symm, fun _ => rfl⟩ _ _ fun i => congrArg f (eq_ix1 i)

/-- Lane 0 of every image's entry of a table, added up from the zero word and divided by a word. -/
private theorem tail_read (T : S16x1x128.Idx → EReal) (hs : S16x1x128.Slices ![0, 0, 0] S16x1x1)
    (hc : S16x1x1.ShapeCasts S16) (hr : S16.ReducesTo [0] S_) (hu : 0 < S_.numel) (j : S_.Idx) :
    Host.divf
      (Host.reduceAdd (shapeCast S16 (extractStridedSlice S16x1x1 ![0, 0, 0] T hs) hc)
        (constant (F := Ideal) S_ .f32 0x00000000#32) hr hu)
      (constant (F := Ideal) S_ .f32 0x4B400000#32) j
    = Ideal.div (∑ b : Fin 16, T (ix3 b 0 0)) (Ideal.ofBits .f32 0x4B400000#32) := by
  rw [hostDivf_apply, hostReduceAdd_apply, Ideal.hostReduceAdd_total hr (fun b => b.elim0), constant_apply,
    constant_apply, Ideal.ofBits_zero_f32, zero_add, sum_idx16]
  refine congrArg (fun z => Ideal.div z _) (Finset.sum_congr rfl fun b _ => ?_)
  have e1 : (S16x1x1.rowMajor (ix3 b 0 0)).val = (S16.rowMajor (ix1 b)).val := by
    rw [Shape.rowMajor_val_three, Shape.rowMajor_val_one]
    show (b.val * 1 + 0) * 1 + 0 = b.val
    omega
  rw [shapeCast_apply _ hc _ (ix3 b 0 0) e1]
  exact extractStridedSlice_apply _ T hs _ (ix3 b 0 0) fun a => by
    match a with
    | ⟨0, _⟩ => exact (Nat.zero_add _).symm
    | ⟨1, _⟩ => rfl
    | ⟨2, _⟩ => rfl

/-- The program's result at the last boundary. -/
theorem result (c : Dev nD) (hM : ∀ i, ((m ((c : Thread nD τ).loc main_arg2) : Cert.Spec.SM.Idx → BitVec 32) i).toNat < 128) :
    W5 m ρ c (Proc.devRef .tc main_v14)
      = fun _ => Cert.Spec.resT (m ((c : Thread nD τ).loc main_arg0)) (m ((c : Thread nD τ).loc main_arg1))
          (m ((c : Thread nD τ).loc main_arg2)) := by
  have hM3 : ∀ i, ((V3 m ρ c main_arg2 : Cert.Spec.SM.Idx → BitVec 32) i).toNat < 128 := by
    intro i; rw [V3_arg2]; exact hM i
  have hT : (W4 m ρ c (Proc.devRef .tc main_v10) : S16x1x128.Idx → EReal)
      = fun i => Cert.Spec.outT (m ((c : Thread nD τ).loc main_arg0)) (m ((c : Thread nD τ).loc main_arg1))
          (m ((c : Thread nD τ).loc main_arg2)) (i 0) := by
    refine (W4_arr m ρ c 4).trans ?_
    rw [Value1.total_final (V3 m ρ) c hM3, V3_arg0, V3_arg1, V3_arg2, V3_table]
    rfl
  show StableHlo.after hostOps2 (W4 m ρ c) (Proc.devRef .tc main_v14) = _
  after_results
  rw [hT]
  funext j
  exact tail_read (fun i => Cert.Spec.outT (m ((c : Thread nD τ).loc main_arg0)) (m ((c : Thread nD τ).loc main_arg1))
          (m ((c : Thread nD τ).loc main_arg2)) (i 0))
    slices_S16x1x128_S16x1x1_0_0_0 shapeCasts_S16x1x1_S16 reducesTo_S16_S_d0 h_S_ j

end Cert.KernelIdeal.HostValue

end
-- ==== Proof.LibSegment1.lean ====
import Idealize.ShloMosaic.PureOps.Ideal
import Idealize.ShloMosaic.Lib.ValueIdx
import Idealize.ShloMosaic.Lib.StableHlo.Predicate
import Mathlib.Algebra.BigOperators.Group.Finset.Basic

/-!
# Entry-wise scatter-add, read at an index

The index-level read of the host's accumulating scatter on a rank-1 operand of N entries whose ENTRIES are addressed
by an [E × 1] column of start indices, the updates being a vector of E single values.

Update e is added into the operand entry named by the e-th start index, read as a signed integer; an update whose
start index is negative or at least N is dropped. At n the result is the operand there plus the sum of the updates
whose start index is n.

The operand's one axis is start-indexed and inserted, so there is no window: the landing position of update e is its
start index alone.
-/

noncomputable section

open scoped BigOperators

namespace Cert.Segment

open Idealize.ShloMosaic Idealize.ShloMosaic.ValueIdx
open Idealize.ShloMosaic.StableHlo.Predicate (ixP)

/-! ## The scatter: where update e lands -/

section ScatterEntries

variable {N E w : Nat} (d : ScatterDims ⟨1, ![N]⟩ ⟨2, ![E, 1]⟩ ⟨1, ![E]⟩)

/-- A rank-1 index has one axis; its coordinate there is the entry it was built from. -/
private theorem ix1_val {n : Nat} (a : Fin n) (X : Fin 1) : ((ix1 a) X).val = a.val := by
  have hX : X = 0 := Subsingleton.elim _ _
  subst hX; rfl

/-- The start-indices index update e reads its one start component at: row e of the column. -/
theorem siIdx_entries (hsd : d.scatterDimsToOperandDims = [0]) (hivd : d.indexVectorDim = 1)
    (e : Fin E) (c : Fin d.scatterDimsToOperandDims.length) :
    d.siIdx (ix1 e) c = ixP e := by
  funext b
  match b with
  | ⟨0, _⟩ =>
    -- the column's axis 0 is read by the updates' one axis, whichever position the lists give it
    unfold ScatterDims.siIdx
    rw [dif_neg (by rw [hivd]; simp)]
    unfold ScatterDims.siCoord
    apply Fin.ext
    simp only [Fin.val_cast]
    exact ix1_val e _
  | ⟨1, _⟩ =>
    -- the column's axis 1 is the index vector's; the start index has one component, number 0
    unfold ScatterDims.siIdx
    rw [dif_pos (by rw [hivd])]
    apply Fin.ext
    show c.val = 0
    have hl : d.scatterDimsToOperandDims.length = 1 := by rw [hsd]; rfl
    have := c.isLt
    omega

/-- On the operand's one axis the window of update e starts at the start index of row e, read signed. -/
theorem start_entries (hsd : d.scatterDimsToOperandDims = [0]) (hivd : d.indexVectorDim = 1)
    (idx : IVec ⟨2, ![E, 1]⟩ w) (e : Fin E) :
    d.start (ix1 e) idx (0 : Fin 1) = (idx (ixP e)).toInt := by
  unfold ScatterDims.start
  rw [dif_pos (show (0 : Fin 1) ∈ d.scatterDimsToOperandDims by rw [hsd]; exact List.mem_singleton.mpr rfl),
    siIdx_entries d hsd hivd]

/-- The operand's one axis is inserted: the window coordinate there is 0. -/
theorem window_entries (hiw : d.insertedWindowDims = [0]) (e : Fin E) :
    d.window (ix1 e) (0 : Fin 1) = 0 := by
  unfold ScatterDims.window
  rw [dif_neg]
  intro h
  have h2 := (List.mem_filter.1 h).2
  rw [hiw] at h2
  simp at h2

/-- WHERE AN UPDATE LANDS. Update e lands on entry n exactly when the start index of row e, read signed, is n; with a
    start index that is negative or at least N it lands nowhere. -/
theorem resultIdx?_entries (hiw : d.insertedWindowDims = [0])
    (hsd : d.scatterDimsToOperandDims = [0]) (hivd : d.indexVectorDim = 1)
    (idx : IVec ⟨2, ![E, 1]⟩ w) (e : Fin E) (n : Fin N) :
    d.resultIdx? (ix1 e) idx = some (ix1 n) ↔ (idx (ixP e)).toInt = (n.val : ℤ) := by
  have hs0 := start_entries d hsd hivd idx e
  have hw0 := window_entries d hiw e
  have hn := n.isLt
  unfold ScatterDims.resultIdx?
  constructor
  · intro h
    split at h
    · next hc =>
      have h' := Option.some.inj h
      have h0 : (d.start (ix1 e) idx (0 : Fin 1) + (d.window (ix1 e) (0 : Fin 1) : ℤ)).toNat = n.val :=
        congrArg (fun f : (⟨1, ![N]⟩ : Shape).Idx => (f (0 : Fin 1)).val) h'
      have hc0 := (hc (0 : Fin 1)).1
      rw [hs0, hw0] at h0 hc0
      omega
    · exact absurd h (by simp)
  · intro h0
    have hc : ∀ a, 0 ≤ d.start (ix1 e) idx a + (d.window (ix1 e) a : ℤ)
        ∧ d.start (ix1 e) idx a + (d.window (ix1 e) a : ℤ) < ((⟨1, ![N]⟩ : Shape).size a : ℤ) := by
      intro a
      have ha : a = 0 := Subsingleton.elim _ _
      subst ha
      rw [hs0, hw0]
      show 0 ≤ _ ∧ _ < (N : ℤ)
      omega
    rw [dif_pos hc]
    congr 1
    funext a
    have ha : a = 0 := Subsingleton.elim _ _
    subst ha
    apply Fin.ext
    show (d.start (ix1 e) idx (0 : Fin 1) + (d.window (ix1 e) (0 : Fin 1) : ℤ)).toNat = n.val
    rw [hs0, hw0]; omega

/-- THE SCATTER READ AT n: the operand there plus the updates whose start index, read signed, is n. (The updates have
    no window axis, so an update index is a row e of the column, and it lands on n exactly when its start index is n.) -/
theorem hostScatterAdd_entries (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ixP e)).toInt = (n.val : ℤ)), upd (ix1 e) := by
  -- with no window axis among the updates, every update axis is a scatter axis: nothing more is asked of that list
  have _ := huw
  unfold Ideal.hostScatterAdd
  congr 1
  -- every update index is a single row e; it is in the left sum exactly when its start index is n
  have hrow : ∀ j : (⟨1, ![E]⟩ : Shape).Idx,
      d.resultIdx? j idx = some (ix1 n) ↔ (idx (ixP (j 0))).toInt = (n.val : ℤ) := by
    intro j
    obtain ⟨a, rfl⟩ : ∃ a, j = ix1 a := ⟨_, eq_ix1 j⟩
    exact resultIdx?_entries d hiw hsd hivd idx a n
  refine Finset.sum_nbij' (fun j => j 0) (fun e => ix1 e) ?_ ?_ ?_ ?_ ?_
  · intro j hj
    exact Finset.mem_filter.2 ⟨Finset.mem_univ _, (hrow j).1 (Finset.mem_filter.1 hj).2⟩
  · intro e he
    exact Finset.mem_filter.2 ⟨Finset.mem_univ _, (hrow (ix1 e)).2 (Finset.mem_filter.1 he).2⟩
  · intro j _
    exact (eq_ix1 j).symm
  · intro e _
    rfl
  · intro j _
    exact congrArg upd (eq_ix1 j)

end ScatterEntries

end Cert.Segment

end
-- ==== Proof.RefTables.lean ====
/-
  The reference's two tables and its gathered weights, read at an index.

  A pixel's segment is 64 times its image plus its label; with labels in [0, 64) two pixels share a segment exactly
  when they share image and label, so segment 64 b + c's scattered sum is image b's weight sum of label c, its
  scattered count that label's pixel count, and the quotient the label's average; every segment lies inside the
  table, so a pixel's gathered entry is the average of its own image and label.
-/
import proofs.«400574_j67869073211922_4_alg».proof.Proof.Gen.ReferenceIdeal.Read
import proofs.«400574_j67869073211922_4_alg».proof.Proof.LibSegment1
import proofs.«400574_j67869073211922_4_alg».proof.Proof.SpecLaws
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

open scoped BigOperators
open Idealize.ShloMosaic Idealize.ShloMosaic.ValueIdx

namespace Cert.ReferenceIdeal.RefValue

open Cert.ReferenceIdeal Cert.ReferenceIdeal.Read

variable (X Y : (⟨S16x3x512x512, .f32⟩ : BufTy).Contents (Elt Ideal)) (M : (⟨S16x512x512, .i32⟩ : BufTy).Contents (Elt Ideal))

/-! ## The segment word

A pixel of image a with label l carries the 32-bit word a * 64 + l. With a below 16 and l below 64 neither the
product nor the sum wraps, so the word is the number 64 a + l, read unsigned or signed. -/

/-- The segment word of image a and a label below 64 does not wrap. -/
private theorem seg_toNat (a : ℕ) (l : BitVec 32) (ha : a < 16) (hl : l.toNat < 64) :
    (IntOp.addi (IntOp.muli (BitVec.ofNat 32 a) 64#32) l).toNat = 64 * a + l.toNat := by
  unfold IntOp.addi IntOp.muli
  rw [BitVec.toNat_add, BitVec.toNat_mul, BitVec.toNat_ofNat]
  have h64 : (64#32).toNat = 64 := rfl
  rw [h64]
  omega

/-- Read signed, it is that number too. -/
private theorem seg_toInt (a : ℕ) (l : BitVec 32) (ha : a < 16) (hl : l.toNat < 64) :
    (IntOp.addi (IntOp.muli (BitVec.ofNat 32 a) 64#32) l).toInt = ((64 * a + l.toNat : ℕ) : ℤ) := by
  rw [StableHlo.Predicate.toInt_eq_toNat_of_lt (by rw [seg_toNat a l ha hl]; omega), seg_toNat a l ha hl]

/-! ## Flat pixel indices

The flat index e of a pixel is ((image * 512) + row) * 512 + column: image e / 262144, row e / 512 % 512,
column e % 512. -/

/-- A flat pixel index's image, -/
private abbrev pimg (e : Fin 4194304) : Fin 16 := ⟨e.val / 262144, by have := e.isLt; omega⟩
/-- row -/
private abbrev prow (e : Fin 4194304) : Fin 512 := ⟨e.val / 512 % 512, by have := e.isLt; omega⟩
/-- and column. -/
private abbrev pcol (e : Fin 4194304) : Fin 512 := ⟨e.val % 512, by have := e.isLt; omega⟩

/-- Flat pixel indices are the triples (image, row, column). -/
private def pixEquiv : Fin 4194304 ≃ Fin 16 × Fin 512 × Fin 512 where
  toFun e := (pimg e, prow e, pcol e)
  invFun p := ⟨(p.1.val * 512 + p.2.1.val) * 512 + p.2.2.val, by
    have h0 := p.1.isLt; have h1 := p.2.1.isLt; have h2 := p.2.2.isLt; omega⟩
  left_inv e := by
    apply Fin.ext
    show (e.val / 262144 * 512 + e.val / 512 % 512) * 512 + e.val % 512 = e.val
    have := e.isLt; omega
  right_inv p := by
    obtain ⟨a, h, w⟩ := p
    have h0 := a.isLt; have h1 := h.isLt; have h2 := w.isLt
    refine Prod.ext (Fin.ext ?_) (Prod.ext (Fin.ext ?_) (Fin.ext ?_))
    · show ((a.val * 512 + h.val) * 512 + w.val) / 262144 = a.val
      omega
    · show ((a.val * 512 + h.val) * 512 + w.val) / 512 % 512 = h.val
      omega
    · show ((a.val * 512 + h.val) * 512 + w.val) % 512 = w.val
      omega

/-- The flat index of pixel (b, h, w). -/
private abbrev flat (b : Fin 16) (h w : Fin 512) : Fin 4194304 := pixEquiv.symm (b, h, w)

private theorem flat_img (b : Fin 16) (h w : Fin 512) : pimg (flat b h w) = b :=
  congrArg Prod.fst (pixEquiv.apply_symm_apply (b, h, w))
private theorem flat_row (b : Fin 16) (h w : Fin 512) : prow (flat b h w) = h :=
  congrArg (fun p => p.2.1) (pixEquiv.apply_symm_apply (b, h, w))
private theorem flat_col (b : Fin 16) (h w : Fin 512) : pcol (flat b h w) = w :=
  congrArg (fun p => p.2.2) (pixEquiv.apply_symm_apply (b, h, w))

/-! ## The reshapes' and broadcasts' index maps, by coordinates -/

private theorem idx8_eq (e : Fin 4194304) : idx_main_v8 (ix1 e) = ix3 (pimg e) (prow e) (pcol e) := by
  funext a; match a with | ⟨0, _⟩ => rfl | ⟨1, _⟩ => rfl | ⟨2, _⟩ => rfl

private theorem idx10_eq (e : Fin 4194304) : idx_main_v10 (ix1 e) = ix3 (pimg e) (prow e) (pcol e) := by
  funext a; match a with | ⟨0, _⟩ => rfl | ⟨1, _⟩ => rfl | ⟨2, _⟩ => rfl

private theorem idx9_eq (b : Fin 16) (h w : Fin 512) (k : Fin 3) : idx_main_v9 (ix3 b h w) k = ix4 b k h w := by
  funext a; match a with | ⟨0, _⟩ => rfl | ⟨1, _⟩ => rfl | ⟨2, _⟩ => rfl | ⟨3, _⟩ => rfl

private theorem idx12_eq (e : Fin 4194304) : idx_main_v12 (StableHlo.Predicate.ixP e) = ix1 e := by
  funext a; match a with | ⟨0, _⟩ => rfl

private theorem idx16_eq (e : Fin 4194304) : idx_main_v16 (StableHlo.Predicate.ixP e) = ix1 e := by
  funext a; match a with | ⟨0, _⟩ => rfl

private theorem idx28_eq (e : Fin 4194304) : idx_main_v28 (StableHlo.Predicate.ixP e) = ix1 e := by
  funext a; match a with | ⟨0, _⟩ => rfl

private theorem idx30_eq (b : Fin 16) (h w : Fin 512) : idx_main_v30 (ix4 b 0 h w) = ix1 (flat b h w) := by
  funext a
  match a with
  | ⟨0, _⟩ =>
    refine Fin.ext ?_
    show ((b.val * 1 + 0) * 512 + h.val) * 512 + w.val = (b.val * 512 + h.val) * 512 + w.val
    omega

/-! ## The stages before the scatters, at a flat pixel -/

/-- The segment word of flat pixel e. -/
private theorem v8_at (e : Fin 4194304) :
    val_main_v8 (F := Ideal) M (ix1 e)
      = IntOp.addi (IntOp.muli (BitVec.ofNat 32 (pimg e).val) 64#32) (M (ix3 (pimg e) (prow e) (pcol e))) := by
  rw [val_main_v8_apply, val_main_v7_apply, val_main_v6_apply, val_main_v5_apply, val_main_v3_apply, val_main_v4_apply,
    val_main_c_apply, val_main_v2_apply, idx8_eq]

/-- A pixel's reduced weight is its three channels' absolute differences added up: the zero word is 0, and an
    absolute value is the greater of a number and its negative. -/
private theorem v9_at (b : Fin 16) (h w : Fin 512) :
    val_main_v9 (F := Ideal) X Y (ix3 b h w) = Cert.Spec.wc X Y b h w := by
  rw [val_main_v9_apply, val_main_cst_apply]
  unfold Cert.Spec.wc
  refine (congrArg (· + _) Ideal.ofBits_zero_f32).trans ((zero_add _).trans ?_)
  refine Finset.sum_congr rfl fun k _ => ?_
  rw [idx9_eq, val_main_v1_apply, val_main_v0_apply]
  rfl

/-- The weight update of flat pixel e. -/
private theorem v10_at (e : Fin 4194304) :
    val_main_v10 (F := Ideal) X Y (ix1 e) = Cert.Spec.wc X Y (pimg e) (prow e) (pcol e) := by
  rw [val_main_v10_apply, idx10_eq, v9_at]

/-! ## The two scatters, read at an entry -/

/-- The reference's scatter-add, read at entry n over any operand, index column and updates: the operand there plus the
    updates whose start index, read signed, is n. -/
private theorem scatter_at (x : (⟨S1024, .f32⟩ : BufTy).Contents (Elt Ideal))
    (idx : (⟨S4194304x1, .i32⟩ : BufTy).Contents (Elt Ideal))
    (upd : (⟨S4194304, .f32⟩ : BufTy).Contents (Elt Ideal)) (n : Fin 1024) :
    Host.scatterAdd (F := Ideal) (φ := .f32) scatter_S1024_S4194304x1_S4194304_n_0_0_1 x idx upd (ix1 n)
      = x (ix1 n) + ∑ e ∈ Finset.univ.filter (fun e : Fin 4194304 =>
          (idx (StableHlo.Predicate.ixP e)).toInt = (n.val : ℤ)), upd (ix1 e) :=
  Cert.Segment.hostScatterAdd_entries scatter_S1024_S4194304x1_S4194304_n_0_0_1 rfl rfl rfl rfl x idx upd n

/-- The weight table at entry n. -/
private theorem v13_at (n : Fin 1024) :
    val_main_v13 (F := Ideal) X Y M (ix1 n)
      = val_main_v11 (F := Ideal) (ix1 n) + ∑ e ∈ Finset.univ.filter (fun e : Fin 4194304 =>
          (val_main_v12 (F := Ideal) M (StableHlo.Predicate.ixP e)).toInt = (n.val : ℤ)),
            val_main_v10 (F := Ideal) X Y (ix1 e) := by
  unfold val_main_v13
  exact scatter_at (val_main_v11 (F := Ideal)) (val_main_v12 (F := Ideal) M) (val_main_v10 (F := Ideal) X Y) n

/-- The count table at entry n. -/
private theorem v17_at (n : Fin 1024) :
    val_main_v17 (F := Ideal) M (ix1 n)
      = val_main_v15 (F := Ideal) (ix1 n) + ∑ e ∈ Finset.univ.filter (fun e : Fin 4194304 =>
          (val_main_v16 (F := Ideal) M (StableHlo.Predicate.ixP e)).toInt = (n.val : ℤ)),
            val_main_v14 (F := Ideal) (ix1 e) := by
  unfold val_main_v17
  exact scatter_at (val_main_v15 (F := Ideal)) (val_main_v16 (F := Ideal) M) (val_main_v14 (F := Ideal)) n

/-! ## A segment's pixels

64 a + l = 64 b + c with l and c below 64 forces a = b and l = c: the pixels of segment 64 b + c are the pixels of
image b labelled c, so a sum over them is a sum over image b's rows and columns of the pixels labelled c. -/

/-- With labels below 64, flat pixel e lies in segment 64 b + c exactly when its image is b and its label c. -/
private theorem seg_iff (hM : ∀ i, (M i).toNat < 64) (b : Fin 16) (c : Fin 64) (e : Fin 4194304) :
    (val_main_v8 (F := Ideal) M (ix1 e)).toInt = ((64 * b.val + c.val : ℕ) : ℤ)
      ↔ pimg e = b ∧ (M (ix3 (pimg e) (prow e) (pcol e))).toNat = c.val := by
  rw [v8_at, seg_toInt _ _ (pimg e).isLt (hM _)]
  have hl := hM (ix3 (pimg e) (prow e) (pcol e))
  have hc := c.isLt
  constructor
  · intro h
    have h' : 64 * (pimg e).val + (M (ix3 (pimg e) (prow e) (pcol e))).toNat = 64 * b.val + c.val := by exact_mod_cast h
    exact ⟨Fin.ext (by omega), by omega⟩
  · rintro ⟨h1, h2⟩
    rw [h2, h1]

/-- A sum over the flat pixels of segment 64 b + c is the sum over image b's rows and columns of the pixels labelled c. -/
private theorem seg_sum (hM : ∀ i, (M i).toNat < 64) (b : Fin 16) (c : Fin 64) (f : Fin 16 → Fin 512 → Fin 512 → EReal) :
    ∑ e ∈ Finset.univ.filter (fun e : Fin 4194304 =>
        (val_main_v8 (F := Ideal) M (ix1 e)).toInt = ((64 * b.val + c.val : ℕ) : ℤ)), f (pimg e) (prow e) (pcol e)
      = ∑ h : Fin 512, ∑ w : Fin 512, if (M (ix3 b h w)).toNat = c.val then f b h w else 0 := by
  classical
  rw [Finset.sum_filter]
  -- the summand as a function of the pixel's triple
  have step1 : ∀ e : Fin 4194304,
      (if (val_main_v8 (F := Ideal) M (ix1 e)).toInt = ((64 * b.val + c.val : ℕ) : ℤ) then f (pimg e) (prow e) (pcol e) else 0)
        = (fun p : Fin 16 × Fin 512 × Fin 512 =>
            if p.1 = b ∧ (M (ix3 p.1 p.2.1 p.2.2)).toNat = c.val then f p.1 p.2.1 p.2.2 else 0) (pixEquiv e) := by
    intro e
    exact if_congr (seg_iff M hM b c e) rfl rfl
  refine (Finset.sum_congr rfl (fun e _ => step1 e)).trans ?_
  -- move the sum over the triples, then split it by coordinates; only image b contributes
  refine (Equiv.sum_comp pixEquiv (fun p : Fin 16 × Fin 512 × Fin 512 =>
            if p.1 = b ∧ (M (ix3 p.1 p.2.1 p.2.2)).toNat = c.val then f p.1 p.2.1 p.2.2 else 0)).trans ?_
  rw [Fintype.sum_prod_type, Finset.sum_eq_single b]
  · rw [Fintype.sum_prod_type]
    refine Finset.sum_congr rfl fun h _ => Finset.sum_congr rfl fun w _ => ?_
    exact if_congr (and_iff_right rfl) rfl rfl
  · intro a _ hab
    refine Finset.sum_eq_zero fun p _ => ?_
    exact if_neg (fun hh => hab hh.1)
  · intro hb
    exact absurd (Finset.mem_univ b) hb

/-- Segment 64 b + c of the weight table is image b's weight sum of label c: a weight counted when the label is c is
    the weight times the label's indicator. -/
private theorem sums_at (hM : ∀ i, (M i).toNat < 64) (b : Fin 16) (c : Fin 64) (hn : 64 * b.val + c.val < 1024)
    (hc : c.val < 128) :
    val_main_v13 (F := Ideal) X Y M (ix1 ⟨64 * b.val + c.val, hn⟩) = Cert.Spec.sumsT X Y M b ⟨c.val, hc⟩ := by
  rw [v13_at, val_main_v11_apply, val_main_cst_0_apply]
  refine (congrArg (· + _) Ideal.ofBits_zero_f32).trans ((zero_add _).trans ?_)
  have hf : Finset.univ.filter (fun e : Fin 4194304 =>
        (val_main_v12 (F := Ideal) M (StableHlo.Predicate.ixP e)).toInt = (((⟨64 * b.val + c.val, hn⟩ : Fin 1024).val : ℕ) : ℤ))
      = Finset.univ.filter (fun e : Fin 4194304 =>
        (val_main_v8 (F := Ideal) M (ix1 e)).toInt = ((64 * b.val + c.val : ℕ) : ℤ)) :=
    Finset.filter_congr fun e _ => by rw [val_main_v12_apply, idx12_eq]
  refine (Finset.sum_congr hf fun e _ => v10_at X Y e).trans ?_
  refine (seg_sum M hM b c (fun a h w => Cert.Spec.wc X Y a h w)).trans ?_
  unfold Cert.Spec.sumsT Cert.Spec.hot
  refine Finset.sum_congr rfl fun h _ => Finset.sum_congr rfl fun w _ => ?_
  rw [mul_ite, mul_one, mul_zero]

/-- Segment 64 b + c of the count table is image b's pixel count of label c: every update is the word 1.0, the
    number one. -/
private theorem cnts_at (hM : ∀ i, (M i).toNat < 64) (b : Fin 16) (c : Fin 64) (hn : 64 * b.val + c.val < 1024)
    (hc : c.val < 128) :
    val_main_v17 (F := Ideal) M (ix1 ⟨64 * b.val + c.val, hn⟩) = Cert.Spec.cntsT M b ⟨c.val, hc⟩ := by
  rw [v17_at, val_main_v15_apply, val_main_cst_2_apply]
  refine (congrArg (· + _) Ideal.ofBits_zero_f32).trans ((zero_add _).trans ?_)
  have hf : Finset.univ.filter (fun e : Fin 4194304 =>
        (val_main_v16 (F := Ideal) M (StableHlo.Predicate.ixP e)).toInt = (((⟨64 * b.val + c.val, hn⟩ : Fin 1024).val : ℕ) : ℤ))
      = Finset.univ.filter (fun e : Fin 4194304 =>
        (val_main_v8 (F := Ideal) M (ix1 e)).toInt = ((64 * b.val + c.val : ℕ) : ℤ)) :=
    Finset.filter_congr fun e _ => by rw [val_main_v16_apply, idx16_eq]
  have h1 : ∀ e : Fin 4194304, val_main_v14 (F := Ideal) (ix1 e)
      = (fun (_ : Fin 16) (_ _ : Fin 512) => (1 : EReal)) (pimg e) (prow e) (pcol e) := by
    intro e
    rw [val_main_v14_apply, val_main_cst_1_apply]
    exact Cert.Spec.one32_eq
  refine (Finset.sum_congr hf fun e _ => h1 e).trans ?_
  refine (seg_sum M hM b c (fun _ _ _ => (1 : EReal))).trans ?_
  rfl

/-- Segment 64 b + c of the reference's quotient table is image b's average of label c. -/
theorem avg_table (hM : ∀ i, (M i).toNat < 64) (b : Fin 16) (c : Fin 64) :
    val_main_v22 (F := Ideal) X Y M (ix1 ⟨64 * b.val + c.val, by have := b.isLt; have := c.isLt; omega⟩)
      = Cert.Spec.avgT X Y M b ⟨c.val, by have := c.isLt; omega⟩ := by
  rw [val_main_v22_apply, val_main_v21_apply, val_main_v19_apply, val_main_v18_apply, val_main_cst_3_apply,
    val_main_v20_apply, val_main_cst_4_apply, sums_at X Y M hM b c _ (by have := c.isLt; omega),
    cnts_at M hM b c _ (by have := c.isLt; omega)]
  rfl

/-! ## The gather back to the pixels

The start index of pixel (b, h, w) is its segment word: it is not negative, so the select before the gather keeps
it, and it is below 1024, so the gather's clamp keeps it; the pixel reads segment 64 b + its label. -/

private theorem ofFin_eq_ix1 {n : Nat} (p : Fin n) : Shape.Idx.ofFin p = ix1 p := by
  funext a; match a with | ⟨0, _⟩ => rfl

/-- The reference's gather, read at flat pixel p over any table and index column: the table at the start index read
    signed and clamped into [0, 1023]. -/
private theorem gather_at (x : (⟨S1024, .f32⟩ : BufTy).Contents (Elt Ideal))
    (idx : (⟨S4194304x1, .i32⟩ : BufTy).Contents (Elt Ideal)) (p : Fin 4194304) :
    Host.gather gather_S1024_S4194304x1_S4194304_n_0_n_n_0_1_1 x idx (ix1 p)
      = x (ix1 ⟨min (idx (StableHlo.Predicate.ixP p)).toInt.toNat 1023, by omega⟩) := by
  have h := StableHlo.Predicate.gather_take gather_S1024_S4194304x1_S4194304_n_0_n_n_0_1_1 rfl rfl rfl rfl x idx p (by decide)
  rw [ofFin_eq_ix1, ofFin_eq_ix1] at h
  exact h

/-- The gather's start index of pixel (b, h, w) is the pixel's segment word: the word is not negative. -/
private theorem v28_at (hM : ∀ i, (M i).toNat < 64) (b : Fin 16) (h w : Fin 512) :
    val_main_v28 (F := Ideal) M (StableHlo.Predicate.ixP (flat b h w))
      = IntOp.addi (IntOp.muli (BitVec.ofNat 32 b.val) 64#32) (M (ix3 b h w)) := by
  rw [val_main_v28_apply, idx28_eq, val_main_v27_apply, val_main_v24_apply, val_main_v23_apply, val_main_c_5_apply,
    v8_at, flat_img, flat_row, flat_col]
  have hlt := seg_toNat b.val (M (ix3 b h w)) b.isLt (hM _)
  have hl := hM (ix3 b h w)
  have hb := b.isLt
  have hneg : ¬ IntOp.cmpi .slt (IntOp.addi (IntOp.muli (BitVec.ofNat 32 b.val) 64#32) (M (ix3 b h w))) 0#32 = 1#1 := by
    rw [StableHlo.Predicate.slt_iff_toNat (by rw [hlt]; omega) (by decide)]
    exact Nat.not_lt_zero _
  exact if_neg hneg

/-- A pixel's gathered weight is the average of its own image and label. -/
theorem gathered (hM : ∀ i, (M i).toNat < 64) (b : Fin 16) (h w : Fin 512) :
    val_main_v30 (F := Ideal) X Y M (ix4 b 0 h w) = Cert.Spec.avgT X Y M b (Cert.Spec.lab M b h w) := by
  rw [val_main_v30_apply, idx30_eq]
  unfold val_main_v29
  rw [gather_at]
  have hl := hM (ix3 b h w)
  have hb := b.isLt
  have hint := seg_toInt b.val (M (ix3 b h w)) hb hl
  -- the clamped start index is the segment 64 b + label
  have hidx : (⟨min (val_main_v28 (F := Ideal) M (StableHlo.Predicate.ixP (flat b h w))).toInt.toNat 1023, by omega⟩ : Fin 1024)
      = ⟨64 * b.val + (⟨(M (ix3 b h w)).toNat, hl⟩ : Fin 64).val, by show 64 * b.val + (M (ix3 b h w)).toNat < 1024; omega⟩ := by
    refine Fin.ext ?_
    show min (val_main_v28 (F := Ideal) M (StableHlo.Predicate.ixP (flat b h w))).toInt.toNat 1023
      = 64 * b.val + (M (ix3 b h w)).toNat
    rw [v28_at M hM b h w, hint, Int.toNat_natCast]
    omega
  rw [hidx, avg_table X Y M hM b ⟨(M (ix3 b h w)).toNat, hl⟩]
  -- a label below 64 is its own residue mod 128
  refine congrArg (Cert.Spec.avgT X Y M b) (Fin.ext ?_)
  show (M (ix3 b h w)).toNat = (M (ix3 b h w)).toNat % 128
  omega

end Cert.ReferenceIdeal.RefValue

end
-- ==== Proof.RefResult.lean ====
/-
  The reference's result: its greatest gathered weight is the greatest average of the whole table, so its
  normalized, clipped weight at a pixel is the normalized table's entry at the pixel's image and label, and its
  mean is the total over images, rows, columns and channels divided by the number of entries.
-/
import proofs.«400574_j67869073211922_4_alg».proof.Proof.Gen.ReferenceIdeal.Read
import proofs.«400574_j67869073211922_4_alg».proof.Proof.RefTables
import proofs.«400574_j67869073211922_4_alg».proof.Proof.SpecLaws
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

open scoped BigOperators
open Idealize.ShloMosaic Idealize.ShloMosaic.ValueIdx

namespace Cert.ReferenceIdeal.RefValue

open Cert.ReferenceIdeal Cert.ReferenceIdeal.Read

variable (X Y : (⟨S16x3x512x512, .f32⟩ : BufTy).Contents (Elt Ideal)) (M : (⟨S16x512x512, .i32⟩ : BufTy).Contents (Elt Ideal))

/-- A rank-4 index set is the product of its four coordinate ranges … -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the iterated sum over the coordinates, in the index's own order. -/
private theorem sum_idx4 {A : Type*} [AddCommMonoid A] {n0 n1 n2 n3 : Nat}
    (f : (⟨4, ![n0, n1, n2, n3]⟩ : Shape).Idx → A) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The same total with the second coordinate's sum moved innermost: over the first, third and fourth
    coordinates, and last over the second. -/
private theorem sum_idx4_second_last {A : Type*} [AddCommMonoid A] {n0 n1 n2 n3 : Nat}
    (f : (⟨4, ![n0, n1, n2, n3]⟩ : Shape).Idx → A) :
    ∑ i, f i = ∑ a : Fin n0, ∑ c : Fin n2, ∑ d : Fin n3, ∑ b : Fin n1, f (ix4 a b c d) := by
  rw [sum_idx4]
  refine Finset.sum_congr rfl fun a _ => ?_
  rw [Finset.sum_comm]
  refine Finset.sum_congr rfl fun c _ => ?_
  rw [Finset.sum_comm]

/-- The reference's greatest gathered weight is the greatest average. -/
theorem greatest (hM : ∀ i, (M i).toNat < 64) :
    val_main_v31 (F := Ideal) X Y M = fun _ => Cert.Spec.gmaxT X Y M := by
  funext j
  unfold val_main_v31
  -- The maximum commutes and associates, so the reduction is a fold over the set of indices that drop to the
  -- result's index; the result has no axis, so that set is every index.
  rw [Host.reduce_eq_fold, Finset.filter_true_of_mem (fun i _ => funext fun a => a.elim0),
    ← Cert.Spec.gmax_pixels X Y M hM]
  refine Finset.fold_congr (fun i _ => ?_)
  -- An index is (image, 0, row, column): its second axis has one entry.
  obtain ⟨b, z, h, w, rfl⟩ : ∃ (b : Fin 16) (z : Fin 1) (h w : Fin 512), i = ix4 b z h w :=
    ⟨i 0, i 1, i 2, i 3, eq_ix4 i⟩
  obtain rfl : z = 0 := Subsingleton.elim _ _
  exact gathered X Y M hM b h w

/-- The broadcast over the channel axis reads the pixel's own entry, whatever the channel. -/
private theorem chan_idx (b : Fin 16) (ch : Fin 3) (h w : Fin 512) :
    idx_main_v39 (ix4 b ch h w) = ix4 b (0 : Fin 1) h w :=
  funext fun a => Fin.ext (by match a with | ⟨0, _⟩ => rfl | ⟨1, _⟩ => rfl | ⟨2, _⟩ => rfl | ⟨3, _⟩ => rfl)

/-- The pixel's weight divided by the greatest and kept inside [0, 1] is the normalized average of the pixel's
    image and label: min 1.0 (max 0.0 (average / greatest)). -/
private theorem clipped (hM : ∀ i, (M i).toNat < 64) (b : Fin 16) (h w : Fin 512) :
    val_main_v34 (F := Ideal) X Y M (ix4 b 0 h w) = Cert.Spec.normT X Y M b (Cert.Spec.lab M b h w) := by
  rw [val_main_v34_apply, val_main_call0_v2_apply, val_main_v33_apply, val_main_v32_apply, greatest X Y M hM,
    gathered X Y M hM, val_main_call0_v4_apply, val_main_call0_v1_apply]
  rfl

/-- One entry of the scaled array: the absolute difference |x - y| times (normalized average * 1.0 + 1.0). -/
private theorem scaled (hM : ∀ i, (M i).toNat < 64) (b : Fin 16) (ch : Fin 3) (h w : Fin 512) :
    val_main_v40 (F := Ideal) X Y M (ix4 b ch h w)
      = Cert.Spec.dabs X Y b ch h w
        * (Cert.Spec.normTab X Y M (ix3 b 0 (Cert.Spec.lab M b h w)) * Cert.Spec.one32 + Cert.Spec.one32) := by
  rw [val_main_v40_apply, val_main_v39_apply, chan_idx, val_main_v38_apply, val_main_v36_apply, clipped X Y M hM,
    val_main_v37_apply, val_main_v35_apply]
  rfl

/-- The reference's result. -/
theorem result (hM : ∀ i, (M i).toNat < 64) :
    val_main_v42 (F := Ideal) X Y M = fun _ => Cert.Spec.resT X Y M := by
  funext j
  -- The quotient of (0.0 + the total over every index of the scaled array) by the count word; the total is taken
  -- over image, row, column and, innermost, channel, and the zero word is the number 0.
  rw [val_main_v42_apply, val_main_v41_apply, sum_idx4_second_last]
  simp only [scaled X Y M hM]
  rw [val_main_cst_12_apply, Ideal.ofBits_def, Ideal.ofBits_zero_f32, zero_add]
  rfl

end Cert.ReferenceIdeal.RefValue

end
-- ==== Proof.Pre.lean ====
/-
  What the precondition says of the label argument: every label is at least 0 and below 64 as a signed word, so
  as an unsigned word it is below 64.
-/
import proofs.«400574_j67869073211922_4_alg».proof.Pre_finite_inputs
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreRead

open Cert.Pre_finite_inputs

/-- A word that is at least 0 read signed has its top bit clear. -/
theorem lt31_of_sge {a : BitVec 32} (h : IntOp.cmpi .sge a 0#32 = 1#1) : a.toNat < 2 ^ 31 := by
  unfold IntOp.cmpi at h
  have h' : (0#32).sle a = true := (StableHlo.Predicate.ofBool_eq_one_iff _).mp h
  have h2 : (0 : Int) ≤ a.toInt := by
    have := h'
    simp only [BitVec.sle, decide_eq_true_eq] at this
    simpa using this
  rw [BitVec.toInt_eq_toNat_cond] at h2
  have hlt := a.isLt
  split at h2 <;> omega

/-- The rank-0 shape has one index. -/
instance : Subsingleton S_.Idx := ⟨fun a b => funext fun d => d.elim0⟩

/-- Under the precondition every label is below 64: the precondition's last two conjuncts say, of every entry of the
    label argument, that it is at least 0 and less than 64 read signed. -/
theorem labels_lt [Cert.Pre_finite_inputs.Facts] (X Y : FVec Ideal S16x3x512x512 .f32) (M : IVec S16x512x512 32)
    (h : Cert.Pre_finite_inputs.fn (F := Ideal) X Y M = fun _ => 1#1) : ∀ i, (M i).toNat < 64 := by
  intro i
  have h0 := congrFun h ix0
  dsimp only [fn, fn_part1] at h0
  obtain ⟨h1, hlt⟩ := IntOp.andi_eq_one.1 (show IntOp.andi _ _ = 1#1 from h0)
  obtain ⟨_, hge⟩ := IntOp.andi_eq_one.1 (show IntOp.andi _ _ = 1#1 from h1)
  have hgei := Host.reduce_andi_all _ _ _ _ _ hge i
  have hlti := Host.reduce_andi_all _ _ _ _ _ hlt i
  have hge' : IntOp.cmpi .sge (M i) 0#32 = 1#1 := hgei
  have hlt' : IntOp.cmpi .slt (M i) 64#32 = 1#1 := hlti
  have h31 := lt31_of_sge hge'
  have := (StableHlo.Predicate.slt_iff_toNat h31 (by decide)).mp hlt'
  simpa using this

end Cert.PreRead

end
-- ==== Proof.lean ====
/-
  The claims of this certificate, assembled.

  Both programs compute, from the two images x, y and the label image, the mean over all entries of
  |x - y| * (1 + the normalized average of |x - y| over the entry's image and label): the kernel program by two
  tiled kernels (per-image, per-label weight sums and pixel counts through one-hot matrix products; then the scaled
  total through a one-hot row against the normalized table) with the averages, their greatest and the clip between
  them on the host; the reference by a scatter-add over segments 64 * image + label, a gather back to the pixels
  and a mean. Under the precondition every label is in [0, 64), so a segment is one image's one label and the two
  are the same function of the arguments (Spec.lean's resT): the kernel program's run ends with its result there
  (KRun.lean's launch, KHost.lean's reading of the last boundary), the reference's generated run with its result there
  (RefResult.lean). The frames are the generated ones, the reference's its generated run with the result dropped;
  the idealization rewrote nothing.
-/
import proofs.«400574_j67869073211922_4_alg».proof.Defs
import proofs.«400574_j67869073211922_4_alg».proof.Proof.Gen.Kernel
import proofs.«400574_j67869073211922_4_alg».proof.Proof.Gen.Kernel.Skeleton
import proofs.«400574_j67869073211922_4_alg».proof.Proof.Gen.Kernel.Launch
import proofs.«400574_j67869073211922_4_alg».proof.Proof.Gen.Kernel.Points
import proofs.«400574_j67869073211922_4_alg».proof.Proof.Gen.Kernel.Frame
import proofs.«400574_j67869073211922_4_alg».proof.Proof.Gen.KernelIdeal
import proofs.«400574_j67869073211922_4_alg».proof.Proof.Gen.KernelIdeal.Skeleton
import proofs.«400574_j67869073211922_4_alg».proof.Proof.Gen.KernelIdeal.Launch
import proofs.«400574_j67869073211922_4_alg».proof.Proof.Gen.KernelIdeal.Points
import proofs.«400574_j67869073211922_4_alg».proof.Proof.Gen.KernelIdeal.Frame
import proofs.«400574_j67869073211922_4_alg».proof.Proof.Gen.ReferenceIdeal
import proofs.«400574_j67869073211922_4_alg».proof.Proof.Gen.Pre_finite_inputs
import proofs.«400574_j67869073211922_4_alg».proof.Proof.Gen.ReferenceIdeal.Run
import proofs.«400574_j67869073211922_4_alg».proof.Proof.Gen.ReferenceIdeal.Read
import proofs.«400574_j67869073211922_4_alg».proof.Proof.KRun
import proofs.«400574_j67869073211922_4_alg».proof.Proof.KHost
import proofs.«400574_j67869073211922_4_alg».proof.Proof.RefResult
import proofs.«400574_j67869073211922_4_alg».proof.Proof.Pre
import Idealize.ShloMosaic.Adequacy
import Idealize.ShloMosaic.Init

noncomputable section

namespace Cert.Proof

open Idealize.ShloMosaic Idealize.SL.Sem

/-- The two idealized programs end with equal results: each ends at the specification's value of the arguments, the
    labels in range by the precondition. -/
theorem algebraic [Cert.KernelIdeal.Facts] [Cert.ReferenceIdeal.Facts] [Cert.Pre_finite_inputs.Facts] :
    Cert.algebraic_KernelIdeal_ReferenceIdeal := by
  intro m ρ m' ρ' hpre hagree
  have hM : ∀ (c : Dev Cert.KernelIdeal.nD) i,
      (m ((c.tc : Thread Cert.KernelIdeal.nD Cert.KernelIdeal.τ).loc Cert.KernelIdeal.main_arg2) i).toNat < 64 :=
    fun c => Cert.PreRead.labels_lt _ _ _ (hpre c)
  refine ⟨fun c => fun _ => Cert.Spec.resT
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.HostValue.result m ρ c fun i => lt_trans (hM c i) (by decide)), (h c).2⟩)
      (Cert.KernelIdeal.Gen.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v42_eq, (hagree c).1, (hagree c).2.1, (hagree c).2.2]
    exact Cert.ReferenceIdeal.RefValue.result _ _ _ (hM c)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
